-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1024x3 : Shape := ⟨2, ![1024, 3]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x8192 : Shape := ⟨2, ![1, 8192]⟩
abbrev S4x8192 : Shape := ⟨2, ![4, 8192]⟩

abbrev nBuf : Space → Nat
  | .hbm => 6
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v33 : BitVec 32 := Scalar.muli arg2 c1024_i32
  v33
def k0_off1 (i : grid0.Coords) : Fin 3 → Nat :=
  let c0_19 : Index := 0#32
  let c0_20 : Index := 0#32
  let arg2 : BitVec 32 := BitVec.ofNat 32 (i 2).val
  let c1024_i32 : BitVec 32 := 1024#32
  let v33 : BitVec 32 := Scalar.muli arg2 c1024_i32
  let v34 : BitVec 32 := v33
  let v35 : Index := Scalar.indexCast v34
  ![0, 0, v35.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  reduces_S1024x1024_S1024 : S1024x1024.Reduces [1] S1024
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  reduces_S1024x1024_S1024_2 : S1024x1024.Reduces [0] S1024
  shapeCasts_S4x1x8192_S4x8192 : S4x1x8192.ShapeCasts S4x8192
  dot_S1024x3_S1024x3_S1024x1024_1_1_0_0_n_n_wf : DotDims.WF S1024x3 S1024x3 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KI.Conds.lean ====
/-
  The two branch conditions of the chamfer body, decided over the grid, and the staging memrefs the pipeline
  hands the body at a point.

  The grid is (batch, tile of the first cloud, tile of the second cloud) = (4, 8, 8), walked in row-major order, so
  point `t` has second-cloud tile `t % 8` and first-cloud tile `(t / 8) % 8`. The first conditional (reset the
  running row minimum) fires when the second-cloud tile is 0, i.e. `t % 8 = 0`; the second (reset the running
  column minimum) when both tiles are 0, i.e. `t % 64 = 0`.
-/
import proofs.«117525_j755914244601_2_alg».proof.Proof.Gen.KernelIdeal.Frame
import proofs.«117525_j755914244601_2_alg».proof.Proof.Gen.KernelIdeal.Skeleton

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's word: the second-cloud tile is the first of its sweep. -/
abbrev cond0 (i : grid0.Coords) : Prop :=
  (Scalar.cmpi .ne (Scalar.extui (Scalar.cmpi .eq (BitVec.ofNat 32 (i 2).val) 0#32)) 0#32) = 1#1

/-- It holds exactly at the points whose second-cloud tile is 0. -/
theorem hcond0 : ∀ t : Fin cfg0.N, cond0 (grid0.coords t) ↔ t.val % 8 = 0 :=
  (by decide +kernel : ∀ t : Fin grid0.N, cond0 (grid0.coords t) ↔ t.val % 8 = 0)

/-- The second conditional's word: both tiles are the first of their sweeps. -/
abbrev cond1 (i : grid0.Coords) : Prop :=
  (Scalar.cmpi .ne (Scalar.extui (Scalar.andi (Scalar.cmpi .eq (BitVec.ofNat 32 (i 1).val) 0#32)
    (Scalar.cmpi .eq (BitVec.ofNat 32 (i 2).val) 0#32))) 0#32) = 1#1

/-- It holds exactly at the first point of each batch. -/
theorem hcond1 : ∀ t : Fin cfg0.N, cond1 (grid0.coords t) ↔ t.val % 64 = 0 :=
  (by decide +kernel : ∀ t : Fin grid0.N, cond1 (grid0.coords t) ↔ t.val % 64 = 0)

/-- Where the column-minimum slice starts in its buffer: lane `1024 · (t % 8)`. -/
theorem off1_eq : ∀ t : Fin cfg0.N, k0_off1 (grid0.coords t) = ![0, 0, 1024 * (t.val % 8)] :=
  (by decide +kernel : ∀ t : Fin grid0.N, k0_off1 (grid0.coords t) = ![0, 0, 1024 * (t.val % 8)])

/-- Each window's current staging memref at point `t`, as the pipeline passes it to the body, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.Proof.KI

end
-- ==== Proof.KI.Outs.lean ====
/-
  What one run of the chamfer body leaves in its two result buffers, as pure functions of what it loaded.

  The row-minimum buffer (1024 lanes) is overwritten whole: lane j becomes the old lane against the minimum of row j of
  the tile's distance matrix (`rowOut`). Of the column-minimum buffer (8192 lanes) only the 1024 lanes of the current
  second-cloud tile are overwritten, each with the old lane against the minimum of its column; the other lanes keep
  what they held (`colOut`).
-/
import proofs.«117525_j755914244601_2_alg».proof.Proof.Gen.KernelIdeal.Skeleton
import Idealize.ShloMosaic.Lib.WritesUnit
import Idealize.ShloMosaic.Lib.Pipeline.Value

noncomputable section

namespace Cert.Proof.KI

open Cert.KernelIdeal Cert.KernelIdeal.Gen
open Idealize.ShloMosaic

variable {F : FTy → Type} [FloatOps F]

/-- The slice of the column-minimum buffer the body reads and rewrites at grid coordinates `i`. -/
abbrev colSlice (i : grid0.Coords) : Rect S1x1x8192 :=
  Rect.unit (s := S1x1x8192) (k0_off1 i) S1x1x1024.size (k0_off1_inb i)

/-- The row-minimum buffer after the body, from its two input tiles and the buffer's contents before. -/
def rowOut (x0 x1 : Vec F S1x1024x3 .f32) (prev : Vec F S1x1x1024 .f32) : Vec F S1x1x1024 .f32 :=
  k0_pay5 x0 x1 prev

/-- The column-minimum buffer after the body: inside the current slice the body's new values (computed from the slice's
    old values), outside it the contents before. -/
def colOut (i : grid0.Coords) (x0 x1 : Vec F S1x1024x3 .f32) (prev : Vec F S1x1x8192 .f32) : Vec F S1x1x8192 .f32 :=
  fun y => if h : ∀ a, k0_off1 i a ≤ (y a).val ∧ (y a).val < k0_off1 i a + S1x1x1024.size a then
      k0_pay2 (k0_pay3 x0 x1) (View.ld prev (colSlice i)) (Rect.unitLocal (s := S1x1x8192) (off := k0_off1 i) (size := S1x1x1024.size) y h)
    else prev y

/-- The whole-buffer rectangles' offsets are zero. -/
theorem off3_zero : (![0, 0, 0] : Fin 3 → ℕ) = fun _ => 0 := funext fun a => by fin_cases a <;> rfl

end Cert.Proof.KI

end
-- ==== Proof.KI.Runs.lean ====
/-
  The chamfer body's triple in each of its three control cases, with what it leaves in the two result buffers named.

  The body loads its two tiles, forms their distance matrix, and then
    · if the second-cloud tile is the first of its sweep, resets the row-minimum buffer to +∞ (after a load of it whose
      value nothing uses), and in every case folds the matrix's row minima into that buffer;
    · if both tiles are the first of their sweeps, resets the column-minimum buffer to +∞ (again after an unused load),
      and in every case folds the matrix's column minima into the current slice of that buffer.
  So a reset case needs nothing of the buffer's contents before, and the other cases continue from them.
-/
import proofs.«117525_j755914244601_2_alg».proof.Proof.KI.Conds
import proofs.«117525_j755914244601_2_alg».proof.Proof.KI.Outs
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole-buffer rectangle of the row-minimum buffer covers every lane. -/
theorem cover5 (w : Vec F S1x1x1024 .f32) (L : List (View.Piece (Elt F) S1x1x1024 .f32)) (y : S1x1x1024.Idx) :
    ∃ pc ∈ ((⟨Rect.unit (s := S1x1x1024) ![0, 0, 0] S1x1x1024.size inb_S1x1x1024_S1x1x1024_0_0_0, w⟩ : View.Piece (Elt F) S1x1x1024 .f32) :: L), y ∈ pc.1.set :=
  ⟨_, List.mem_cons_self, by
    rw [Rect.mem_set_unit]; intro a
    have h0 : (![0, 0, 0] : Fin 3 → ℕ) a = 0 := congrFun off3_zero a
    rw [h0]; exact ⟨Nat.zero_le _, by rw [Nat.zero_add]; exact (y a).isLt⟩⟩

/-- The row-minimum buffer read back after its final whole store. -/
theorem read_row (arg5 : Memref sig .tc .vmem S1x1x1024 .f32) (f : arg5.view.ty.Contents (Elt F)) (w : Vec F S1x1x1024 .f32)
    (L : List (View.Piece (Elt F) S1x1x1024 .f32)) :
    arg5.view.read (Elt F) (arg5.view.writes (Elt F) f
      ((⟨Rect.unit (s := S1x1x1024) ![0, 0, 0] S1x1x1024.size inb_S1x1x1024_S1x1x1024_0_0_0, w⟩ : View.Piece (Elt F) S1x1x1024 .f32) :: L)) = w := by
  rw [View.read_writes_eq_canon _ _ _ (cover5 w L), View.canon_cons_unit_zero off3_zero]

/-- One store through the whole-buffer rectangle of the column-minimum buffer covers every lane. -/
theorem cover6 (w : Vec F S1x1x8192 .f32) (L : List (View.Piece (Elt F) S1x1x8192 .f32)) (y : S1x1x8192.Idx) :
    ∃ pc ∈ ((⟨Rect.unit (s := S1x1x8192) ![0, 0, 0] S1x1x8192.size inb_S1x1x8192_S1x1x8192_0_0_0, w⟩ : View.Piece (Elt F) S1x1x8192 .f32) :: L), y ∈ pc.1.set :=
  ⟨_, List.mem_cons_self, by
    rw [Rect.mem_set_unit]; intro a
    have h0 : (![0, 0, 0] : Fin 3 → ℕ) a = 0 := congrFun off3_zero a
    rw [h0]; exact ⟨Nat.zero_le _, by rw [Nat.zero_add]; exact (y a).isLt⟩⟩

/-- The column-minimum buffer read back after a whole store that nothing later overwrites. -/
theorem read_col (arg6 : Memref sig .tc .vmem S1x1x8192 .f32) (f : arg6.view.ty.Contents (Elt F)) (w : Vec F S1x1x8192 .f32)
    (L : List (View.Piece (Elt F) S1x1x8192 .f32)) :
    arg6.view.read (Elt F) (arg6.view.writes (Elt F) f
      ((⟨Rect.unit (s := S1x1x8192) ![0, 0, 0] S1x1x8192.size inb_S1x1x8192_S1x1x8192_0_0_0, w⟩ : View.Piece (Elt F) S1x1x8192 .f32) :: L)) = w := by
  rw [View.read_writes_eq_canon _ _ _ (cover6 w L), View.canon_cons_unit_zero off3_zero]

set_option maxHeartbeats 1000000 in
/-- Neither reset fires (the second-cloud tile is not the first of its sweep): both buffers continue from their
    contents before. -/
theorem runB (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : ¬cond0 i) (hc1 : ¬cond1 i)
    (x0 : Vec F S1x1024x3 .f32) (x1 : Vec F S1x1024x3 .f32) (xo2 : Vec F S1x1x1024 .f32) (xo3 : Vec F S1x1x8192 .f32)
    (E : Set ℕ) (K : PUnit → sProp 𝕄) :
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (rowOut x0 x1 xo2) ∗ owns (c : Thread nD τ) arg6 fullShare (colOut i x0 x1 xo3)) -∗ K ⟨⟩))
          ⊢ wp frame (wpE (defs₀ (F := F)) Variants.none c none) E (cc0__chamfer_kernel i arg3 harg3 arg4 harg4 arg5 harg5 arg6 harg6) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row]
      sl_unfold_run_names
      simp only [View.readAt_eq_ld, harg3.read_unread, harg4.read_unread, harg5.read_unread, View.ld_unit_zero (S := S1x1024x3) off3_zero, View.ld_unit_zero (S := S1x1x1024) off3_zero]
      rfl
    iexists _; isplitr; swap; · iexact H3
    ipureintro
    funext y
    unfold colOut
    rw [View.read_writes_cons_unit arg6.view _ _ _ [] y rfl]
    sl_unfold_run_names
    simp only [View.readAt_eq_ld, harg3.read_unread, harg4.read_unread, harg6.read_unread, View.ld_unit_zero (S := S1x1024x3) off3_zero]
    split
    · rfl
    · exact congrFun (harg6.read_unread xo3) y

set_option maxHeartbeats 1000000 in
/-- Only the row reset fires (the second-cloud tile is the first of its sweep, the first-cloud tile is not): the
    row-minimum buffer restarts from +∞, the column-minimum buffer continues. -/
theorem runC (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : cond0 i) (hc1 : ¬cond1 i)
    (x0 : Vec F S1x1024x3 .f32) (x1 : Vec F S1x1024x3 .f32) (xo3 : Vec F S1x1x8192 .f32)
    (E : Set ℕ) (K : PUnit → sProp 𝕄) :
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (rowOut x0 x1 k0_pay4) ∗ owns (c : Thread nD τ) arg6 fullShare (colOut i x0 x1 xo3)) -∗ K ⟨⟩))
          ⊢ wp frame (wpE (defs₀ (F := F)) Variants.none c none) E (cc0__chamfer_kernel i arg3 harg3 arg4 harg4 arg5 harg5 arg6 harg6) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row]
      sl_unfold_run_names
      simp only [View.readAt_eq_ld, harg3.read_unread, harg4.read_unread, View.ld_unit_zero (S := S1x1024x3) off3_zero,
        View.readCov_unit_zero (S := S1x1x1024) _ off3_zero]
      rfl
    iexists _; isplitr; swap; · iexact H3
    ipureintro
    funext y
    unfold colOut
    rw [View.read_writes_cons_unit arg6.view _ _ _ [] y rfl]
    sl_unfold_run_names
    simp only [View.readAt_eq_ld, harg3.read_unread, harg4.read_unread, harg6.read_unread, View.ld_unit_zero (S := S1x1024x3) off3_zero]
    split
    · rfl
    · exact congrFun (harg6.read_unread xo3) y

set_option maxHeartbeats 1000000 in
/-- Both resets fire (first point of a batch): both buffers restart from +∞ and nothing of their contents before is
    used. -/
theorem runA (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : cond0 i) (hc1 : cond1 i)
    (x0 : Vec F S1x1024x3 .f32) (x1 : Vec F S1x1024x3 .f32)
    (E : Set ℕ) (K : PUnit → sProp 𝕄) :
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (rowOut x0 x1 k0_pay4) ∗ owns (c : Thread nD τ) arg6 fullShare (colOut i x0 x1 k0_pay1)) -∗ K ⟨⟩))
          ⊢ wp frame (wpE (defs₀ (F := F)) Variants.none c none) E (cc0__chamfer_kernel i arg3 harg3 arg4 harg4 arg5 harg5 arg6 harg6) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row]
      sl_unfold_run_names
      simp only [View.readAt_eq_ld, harg3.read_unread, harg4.read_unread, View.ld_unit_zero (S := S1x1024x3) off3_zero,
        View.readCov_unit_zero (S := S1x1x1024) _ off3_zero]
      rfl
    iexists _; isplitr; swap; · iexact H3
    ipureintro
    funext y
    unfold colOut
    sl_unfold_run_names
    rw [View.read_writes_cons_unit arg6.view _ _ _ _ y rfl]
    have hw : arg6.view.read (Elt F) (arg6.view.writes (Elt F) arg6.view.junk
        [(⟨Rect.unit (s := S1x1x8192) ![0, 0, 0] S1x1x8192.size inb_S1x1x8192_S1x1x8192_0_0_0, k0_pay1⟩ : View.Piece (Elt F) S1x1x8192 .f32)]) = k0_pay1 :=
      read_col arg6 _ _ _
    simp only [View.readAt_eq_ld, harg3.read_unread, harg4.read_unread, View.ld_unit_zero (S := S1x1024x3) off3_zero]
    split
    · exact congrArg (fun v => k0_pay2 (k0_pay3 x0 x1) (View.ld v (colSlice i)) _) hw
    · exact congrFun hw y

end Cert.Proof.KI

end
-- ==== Proof.KI.Data.lean ====
/-
  The pipeline's proof data for the chamfer kernel, the body obligation at every grid point, and the frame run.

  What the two result buffers hold after each grid point is defined by recursion along the grid's row-major walk
  (`outsAt`): at a point the body's result (`rowOut`, `colOut`) over what the point before left, except that the
  row-minimum buffer restarts from +∞ where the second-cloud tile is the first of its sweep (every eighth point) and the
  column-minimum buffer where a new batch starts (every sixty-fourth point). The row-minimum block is written back after
  the last second-cloud tile (points ≡ 7 mod 8) and the column-minimum block after a batch's last point (≡ 63 mod 64),
  so between two write-backs a buffer still holds what the point before left, which is exactly where the body reads it.
-/
import proofs.«117525_j755914244601_2_alg».proof.Proof.KI.Runs

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first cloud's tile at point `t`, as the array holds it when the region is entered. -/
abbrev tile0 (c : Dev nD) (t : Fin cfg0.N) : Vec F S1x1024x3 .f32 := iblk m c 0 t
/-- The second cloud's tile at point `t`. -/
abbrev tile1 (c : Dev nD) (t : Fin cfg0.N) : Vec F S1x1024x3 .f32 := iblk m c 1 t

/-- One grid point's effect on the pair (row-minimum buffer, column-minimum buffer), from what the point before left. -/
def stepOut (c : Dev nD) (t : Fin cfg0.N) (prev : Vec F S1x1x1024 .f32 × Vec F S1x1x8192 .f32) :
    Vec F S1x1x1024 .f32 × Vec F S1x1x8192 .f32 :=
  (rowOut (tile0 m c t) (tile1 m c t) (if t.val % 8 = 0 then k0_pay4 else prev.1),
   colOut (grid0.coords t) (tile0 m c t) (tile1 m c t) (if t.val % 64 = 0 then k0_pay1 else prev.2))

/-- What the two result buffers hold after the body at position `n` of the walk. -/
def outsAt (c : Dev nD) : (n : ℕ) → n < cfg0.N → Vec F S1x1x1024 .f32 × Vec F S1x1x8192 .f32
  | 0, hn => stepOut m c ⟨0, hn⟩ (k0_pay4, k0_pay1)
  | n + 1, hn => stepOut m c ⟨n + 1, hn⟩ (outsAt c n (Nat.lt_of_succ_lt hn))

/-- The point before `t`. -/
abbrev predPt (t : Fin cfg0.N) : Fin cfg0.N := ⟨t.val - 1, Nat.lt_of_le_of_lt (Nat.sub_le _ _) t.isLt⟩

/-- Past the first point, `outsAt` is one step over the point before. -/
theorem outsAt_pos (c : Dev nD) (t : Fin cfg0.N) (ht : t.val ≠ 0) :
    outsAt m c t.val t.isLt = stepOut m c t (outsAt m c (predPt t).val (predPt t).isLt) := by
  obtain ⟨n, hn⟩ := t
  cases n with
  | zero => exact absurd rfl ht
  | succ n => rfl

/-- At the first point of a batch both buffers restart. -/
theorem outsAt_A (c : Dev nD) (t : Fin cfg0.N) (h0 : t.val % 8 = 0) (h1 : t.val % 64 = 0) :
    outsAt m c t.val t.isLt = (rowOut (tile0 m c t) (tile1 m c t) k0_pay4, colOut (grid0.coords t) (tile0 m c t) (tile1 m c t) k0_pay1) := by
  obtain ⟨n, hn⟩ := t
  cases n with
  | zero => unfold outsAt stepOut; rw [if_pos h0, if_pos h1]
  | succ n => unfold outsAt stepOut; rw [if_pos h0, if_pos h1]

/-- Where only the row minimum restarts, the column-minimum buffer continues from the point before. -/
theorem outsAt_C (c : Dev nD) (t : Fin cfg0.N) (h0 : t.val % 8 = 0) (h1 : ¬t.val % 64 = 0) :
    outsAt m c t.val t.isLt = (rowOut (tile0 m c t) (tile1 m c t) k0_pay4,
      colOut (grid0.coords t) (tile0 m c t) (tile1 m c t) (outsAt m c (predPt t).val (predPt t).isLt).2) := by
  rw [outsAt_pos m c t (fun h => h1 (by rw [h]))]
  unfold stepOut; rw [if_pos h0, if_neg h1]

/-- Elsewhere both continue from the point before. -/
theorem outsAt_B (c : Dev nD) (t : Fin cfg0.N) (h0 : ¬t.val % 8 = 0) (h1 : ¬t.val % 64 = 0) :
    outsAt m c t.val t.isLt = (rowOut (tile0 m c t) (tile1 m c t) (outsAt m c (predPt t).val (predPt t).isLt).1,
      colOut (grid0.coords t) (tile0 m c t) (tile1 m c t) (outsAt m c (predPt t).val (predPt t).isLt).2) := by
  rw [outsAt_pos m c t (fun h => h1 (by rw [h]))]
  unfold stepOut; rw [if_neg h0, if_neg h1]

/-! ## The pipeline's proof data -/

/-- The proof data of the one pipeline on core `c`: the arrays as the region finds them; after the body at point `t`
    each input's buffer at its tile and the two results' at `outsAt`; the invariant is the scoped rest and the generator
    register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]
theorem after0_3 (c : Dev nD) (t : Fin cfg0.N) : (dats m 0 c).after 3 t = (outsAt m c t.val t.isLt).2 := by dsimp only [dats]

/-- Each input's current staging buffer holds its tile at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Within a sweep of second-cloud tiles the row-minimum buffer holds what the point before left: it is written back
    only after the sweep's last tile. -/
theorem before0_2_kept (c : Dev nD) (t : Fin cfg0.N) (h0 : ¬t.val % 8 = 0) (d) :
    (dats m 0 c).before 2 t d = (outsAt m c (predPt t).val (predPt t).isLt).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Within a batch the column-minimum buffer holds what the point before left: it is written back only after the
    batch's last point. -/
theorem before0_3_kept (c : Dev nD) (t : Fin cfg0.N) (h1 : ¬t.val % 64 = 0) (d) :
    (dats m 0 c).before 3 t d = (outsAt m c (predPt t).val (predPt t).isLt).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: the inputs' memrefs hold their tiles; the closed forms of the two conditions say which case
    the point is in; a buffer the case continues from holds what the point before left; so that case's triple applies.
    The invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 8 = 0
  · by_cases h1 : t.val % 64 = 0
    · rw [outsAt_A m c t h0 h1]
      iintro ⟨HΦ, Ho, ⟨%d0, H0⟩, ⟨%d1, H1⟩, ⟨%d2, H2⟩, ⟨%d3, H3⟩⟩
      iapply (runA c (grid0.coords t) _ _ _ _ _ _ _ _ ((hcond0 t).mpr h0) ((hcond1 t).mpr h1) (tile0 m c t) (tile1 m c t) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_C m c t h0 h1]
      simp only [before0_3_kept m c t h1]
      iintro ⟨HΦ, Ho, ⟨%d0, H0⟩, ⟨%d1, H1⟩, ⟨%d2, H2⟩, ⟨%d3, H3⟩⟩
      iapply (runC c (grid0.coords t) _ _ _ _ _ _ _ _ ((hcond0 t).mpr h0) (fun h => h1 ((hcond1 t).mp h)) (tile0 m c t) (tile1 m c t) _ Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [outsAt_B m c t h0 h1]
    simp only [before0_2_kept m c t h0, before0_3_kept m c t h1]
    iintro ⟨HΦ, Ho, ⟨%d0, H0⟩, ⟨%d1, H1⟩, ⟨%d2, H2⟩, ⟨%d3, H3⟩⟩
    iapply (runB c (grid0.coords t) _ _ _ _ _ _ _ _ (fun h => h0 ((hcond0 t).mp h)) (fun h => h1 ((hcond1 t).mp h)) (tile0 m c t) (tile1 m c t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data, and every other buffer as the two
    reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.K.Conds.lean ====
import proofs.«117525_j755914244601_2_alg».proof.Proof.KI.Data
/-
  The two branch conditions of the chamfer body, decided over the grid, and the staging memrefs the pipeline
  hands the body at a point.

  The grid is (batch, tile of the first cloud, tile of the second cloud) = (4, 8, 8), walked in row-major order, so
  point `t` has second-cloud tile `t % 8` and first-cloud tile `(t / 8) % 8`. The first conditional (reset the
  running row minimum) fires when the second-cloud tile is 0, i.e. `t % 8 = 0`; the second (reset the running
  column minimum) when both tiles are 0, i.e. `t % 64 = 0`.
-/
import proofs.«117525_j755914244601_2_alg».proof.Proof.Gen.Kernel.Frame
import proofs.«117525_j755914244601_2_alg».proof.Proof.Gen.Kernel.Skeleton

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's word: the second-cloud tile is the first of its sweep. -/
abbrev cond0 (i : grid0.Coords) : Prop :=
  (Scalar.cmpi .ne (Scalar.extui (Scalar.cmpi .eq (BitVec.ofNat 32 (i 2).val) 0#32)) 0#32) = 1#1

/-- It holds exactly at the points whose second-cloud tile is 0. -/
theorem hcond0 : ∀ t : Fin cfg0.N, cond0 (grid0.coords t) ↔ t.val % 8 = 0 :=
  (by decide +kernel : ∀ t : Fin grid0.N, cond0 (grid0.coords t) ↔ t.val % 8 = 0)

/-- The second conditional's word: both tiles are the first of their sweeps. -/
abbrev cond1 (i : grid0.Coords) : Prop :=
  (Scalar.cmpi .ne (Scalar.extui (Scalar.andi (Scalar.cmpi .eq (BitVec.ofNat 32 (i 1).val) 0#32)
    (Scalar.cmpi .eq (BitVec.ofNat 32 (i 2).val) 0#32))) 0#32) = 1#1

/-- It holds exactly at the first point of each batch. -/
theorem hcond1 : ∀ t : Fin cfg0.N, cond1 (grid0.coords t) ↔ t.val % 64 = 0 :=
  (by decide +kernel : ∀ t : Fin grid0.N, cond1 (grid0.coords t) ↔ t.val % 64 = 0)

/-- Where the column-minimum slice starts in its buffer: lane `1024 · (t % 8)`. -/
theorem off1_eq : ∀ t : Fin cfg0.N, k0_off1 (grid0.coords t) = ![0, 0, 1024 * (t.val % 8)] :=
  (by decide +kernel : ∀ t : Fin grid0.N, k0_off1 (grid0.coords t) = ![0, 0, 1024 * (t.val % 8)])

/-- Each window's current staging memref at point `t`, as the pipeline passes it to the body, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.Proof.K

end
-- ==== Proof.K.Outs.lean ====
import proofs.«117525_j755914244601_2_alg».proof.Proof.KI.Data
/-
  What one run of the chamfer body leaves in its two result buffers, as pure functions of what it loaded.

  The row-minimum buffer (1024 lanes) is overwritten whole: lane j becomes the old lane against the minimum of row j of
  the tile's distance matrix (`rowOut`). Of the column-minimum buffer (8192 lanes) only the 1024 lanes of the current
  second-cloud tile are overwritten, each with the old lane against the minimum of its column; the other lanes keep
  what they held (`colOut`).
-/
import proofs.«117525_j755914244601_2_alg».proof.Proof.Gen.Kernel.Skeleton
import Idealize.ShloMosaic.Lib.WritesUnit
import Idealize.ShloMosaic.Lib.Pipeline.Value

noncomputable section

namespace Cert.Proof.K

open Cert.Kernel Cert.Kernel.Gen
open Idealize.ShloMosaic

variable {F : FTy → Type} [FloatOps F]

/-- The slice of the column-minimum buffer the body reads and rewrites at grid coordinates `i`. -/
abbrev colSlice (i : grid0.Coords) : Rect S1x1x8192 :=
  Rect.unit (s := S1x1x8192) (k0_off1 i) S1x1x1024.size (k0_off1_inb i)

/-- The row-minimum buffer after the body, from its two input tiles and the buffer's contents before. -/
def rowOut (x0 x1 : Vec F S1x1024x3 .f32) (prev : Vec F S1x1x1024 .f32) : Vec F S1x1x1024 .f32 :=
  k0_pay5 x0 x1 prev

/-- The column-minimum buffer after the body: inside the current slice the body's new values (computed from the slice's
    old values), outside it the contents before. -/
def colOut (i : grid0.Coords) (x0 x1 : Vec F S1x1024x3 .f32) (prev : Vec F S1x1x8192 .f32) : Vec F S1x1x8192 .f32 :=
  fun y => if h : ∀ a, k0_off1 i a ≤ (y a).val ∧ (y a).val < k0_off1 i a + S1x1x1024.size a then
      k0_pay2 (k0_pay3 x0 x1) (View.ld prev (colSlice i)) (Rect.unitLocal (s := S1x1x8192) (off := k0_off1 i) (size := S1x1x1024.size) y h)
    else prev y

/-- The whole-buffer rectangles' offsets are zero. -/
theorem off3_zero : (![0, 0, 0] : Fin 3 → ℕ) = fun _ => 0 := funext fun a => by fin_cases a <;> rfl

end Cert.Proof.K

end
-- ==== Proof.K.Runs.lean ====
import proofs.«117525_j755914244601_2_alg».proof.Proof.KI.Data
/-
  The chamfer body's triple in each of its three control cases, with what it leaves in the two result buffers named.

  The body loads its two tiles, forms their distance matrix, and then
    · if the second-cloud tile is the first of its sweep, resets the row-minimum buffer to +∞ (after a load of it whose
      value nothing uses), and in every case folds the matrix's row minima into that buffer;
    · if both tiles are the first of their sweeps, resets the column-minimum buffer to +∞ (again after an unused load),
      and in every case folds the matrix's column minima into the current slice of that buffer.
  So a reset case needs nothing of the buffer's contents before, and the other cases continue from them.
-/
import proofs.«117525_j755914244601_2_alg».proof.Proof.K.Conds
import proofs.«117525_j755914244601_2_alg».proof.Proof.K.Outs
import Idealize.ShloMosaic.Lib.Pipeline.Value

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole-buffer rectangle of the row-minimum buffer covers every lane. -/
theorem cover5 (w : Vec F S1x1x1024 .f32) (L : List (View.Piece (Elt F) S1x1x1024 .f32)) (y : S1x1x1024.Idx) :
    ∃ pc ∈ ((⟨Rect.unit (s := S1x1x1024) ![0, 0, 0] S1x1x1024.size inb_S1x1x1024_S1x1x1024_0_0_0, w⟩ : View.Piece (Elt F) S1x1x1024 .f32) :: L), y ∈ pc.1.set :=
  ⟨_, List.mem_cons_self, by
    rw [Rect.mem_set_unit]; intro a
    have h0 : (![0, 0, 0] : Fin 3 → ℕ) a = 0 := congrFun off3_zero a
    rw [h0]; exact ⟨Nat.zero_le _, by rw [Nat.zero_add]; exact (y a).isLt⟩⟩

/-- The row-minimum buffer read back after its final whole store. -/
theorem read_row (arg5 : Memref sig .tc .vmem S1x1x1024 .f32) (f : arg5.view.ty.Contents (Elt F)) (w : Vec F S1x1x1024 .f32)
    (L : List (View.Piece (Elt F) S1x1x1024 .f32)) :
    arg5.view.read (Elt F) (arg5.view.writes (Elt F) f
      ((⟨Rect.unit (s := S1x1x1024) ![0, 0, 0] S1x1x1024.size inb_S1x1x1024_S1x1x1024_0_0_0, w⟩ : View.Piece (Elt F) S1x1x1024 .f32) :: L)) = w := by
  rw [View.read_writes_eq_canon _ _ _ (cover5 w L), View.canon_cons_unit_zero off3_zero]

/-- One store through the whole-buffer rectangle of the column-minimum buffer covers every lane. -/
theorem cover6 (w : Vec F S1x1x8192 .f32) (L : List (View.Piece (Elt F) S1x1x8192 .f32)) (y : S1x1x8192.Idx) :
    ∃ pc ∈ ((⟨Rect.unit (s := S1x1x8192) ![0, 0, 0] S1x1x8192.size inb_S1x1x8192_S1x1x8192_0_0_0, w⟩ : View.Piece (Elt F) S1x1x8192 .f32) :: L), y ∈ pc.1.set :=
  ⟨_, List.mem_cons_self, by
    rw [Rect.mem_set_unit]; intro a
    have h0 : (![0, 0, 0] : Fin 3 → ℕ) a = 0 := congrFun off3_zero a
    rw [h0]; exact ⟨Nat.zero_le _, by rw [Nat.zero_add]; exact (y a).isLt⟩⟩

/-- The column-minimum buffer read back after a whole store that nothing later overwrites. -/
theorem read_col (arg6 : Memref sig .tc .vmem S1x1x8192 .f32) (f : arg6.view.ty.Contents (Elt F)) (w : Vec F S1x1x8192 .f32)
    (L : List (View.Piece (Elt F) S1x1x8192 .f32)) :
    arg6.view.read (Elt F) (arg6.view.writes (Elt F) f
      ((⟨Rect.unit (s := S1x1x8192) ![0, 0, 0] S1x1x8192.size inb_S1x1x8192_S1x1x8192_0_0_0, w⟩ : View.Piece (Elt F) S1x1x8192 .f32) :: L)) = w := by
  rw [View.read_writes_eq_canon _ _ _ (cover6 w L), View.canon_cons_unit_zero off3_zero]

set_option maxHeartbeats 1000000 in
/-- Neither reset fires (the second-cloud tile is not the first of its sweep): both buffers continue from their
    contents before. -/
theorem runB (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : ¬cond0 i) (hc1 : ¬cond1 i)
    (x0 : Vec F S1x1024x3 .f32) (x1 : Vec F S1x1024x3 .f32) (xo2 : Vec F S1x1x1024 .f32) (xo3 : Vec F S1x1x8192 .f32)
    (E : Set ℕ) (K : PUnit → sProp 𝕄) :
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (rowOut x0 x1 xo2) ∗ owns (c : Thread nD τ) arg6 fullShare (colOut i x0 x1 xo3)) -∗ K ⟨⟩))
          ⊢ wp frame (wpE (defs₀ (F := F)) Variants.none c none) E (cc0__chamfer_kernel i arg3 harg3 arg4 harg4 arg5 harg5 arg6 harg6) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row]
      sl_unfold_run_names
      simp only [View.readAt_eq_ld, harg3.read_unread, harg4.read_unread, harg5.read_unread, View.ld_unit_zero (S := S1x1024x3) off3_zero, View.ld_unit_zero (S := S1x1x1024) off3_zero]
      rfl
    iexists _; isplitr; swap; · iexact H3
    ipureintro
    funext y
    unfold colOut
    rw [View.read_writes_cons_unit arg6.view _ _ _ [] y rfl]
    sl_unfold_run_names
    simp only [View.readAt_eq_ld, harg3.read_unread, harg4.read_unread, harg6.read_unread, View.ld_unit_zero (S := S1x1024x3) off3_zero]
    split
    · rfl
    · exact congrFun (harg6.read_unread xo3) y

set_option maxHeartbeats 1000000 in
/-- Only the row reset fires (the second-cloud tile is the first of its sweep, the first-cloud tile is not): the
    row-minimum buffer restarts from +∞, the column-minimum buffer continues. -/
theorem runC (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : cond0 i) (hc1 : ¬cond1 i)
    (x0 : Vec F S1x1024x3 .f32) (x1 : Vec F S1x1024x3 .f32) (xo3 : Vec F S1x1x8192 .f32)
    (E : Set ℕ) (K : PUnit → sProp 𝕄) :
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (rowOut x0 x1 k0_pay4) ∗ owns (c : Thread nD τ) arg6 fullShare (colOut i x0 x1 xo3)) -∗ K ⟨⟩))
          ⊢ wp frame (wpE (defs₀ (F := F)) Variants.none c none) E (cc0__chamfer_kernel i arg3 harg3 arg4 harg4 arg5 harg5 arg6 harg6) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row]
      sl_unfold_run_names
      simp only [View.readAt_eq_ld, harg3.read_unread, harg4.read_unread, View.ld_unit_zero (S := S1x1024x3) off3_zero,
        View.readCov_unit_zero (S := S1x1x1024) _ off3_zero]
      rfl
    iexists _; isplitr; swap; · iexact H3
    ipureintro
    funext y
    unfold colOut
    rw [View.read_writes_cons_unit arg6.view _ _ _ [] y rfl]
    sl_unfold_run_names
    simp only [View.readAt_eq_ld, harg3.read_unread, harg4.read_unread, harg6.read_unread, View.ld_unit_zero (S := S1x1024x3) off3_zero]
    split
    · rfl
    · exact congrFun (harg6.read_unread xo3) y

set_option maxHeartbeats 1000000 in
/-- Both resets fire (first point of a batch): both buffers restart from +∞ and nothing of their contents before is
    used. -/
theorem runA (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : cond0 i) (hc1 : cond1 i)
    (x0 : Vec F S1x1024x3 .f32) (x1 : Vec F S1x1024x3 .f32)
    (E : Set ℕ) (K : PUnit → sProp 𝕄) :
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (rowOut x0 x1 k0_pay4) ∗ owns (c : Thread nD τ) arg6 fullShare (colOut i x0 x1 k0_pay1)) -∗ K ⟨⟩))
          ⊢ wp frame (wpE (defs₀ (F := F)) Variants.none c none) E (cc0__chamfer_kernel i arg3 harg3 arg4 harg4 arg5 harg5 arg6 harg6) K := by
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_row]
      sl_unfold_run_names
      simp only [View.readAt_eq_ld, harg3.read_unread, harg4.read_unread, View.ld_unit_zero (S := S1x1024x3) off3_zero,
        View.readCov_unit_zero (S := S1x1x1024) _ off3_zero]
      rfl
    iexists _; isplitr; swap; · iexact H3
    ipureintro
    funext y
    unfold colOut
    sl_unfold_run_names
    rw [View.read_writes_cons_unit arg6.view _ _ _ _ y rfl]
    have hw : arg6.view.read (Elt F) (arg6.view.writes (Elt F) arg6.view.junk
        [(⟨Rect.unit (s := S1x1x8192) ![0, 0, 0] S1x1x8192.size inb_S1x1x8192_S1x1x8192_0_0_0, k0_pay1⟩ : View.Piece (Elt F) S1x1x8192 .f32)]) = k0_pay1 :=
      read_col arg6 _ _ _
    simp only [View.readAt_eq_ld, harg3.read_unread, harg4.read_unread, View.ld_unit_zero (S := S1x1024x3) off3_zero]
    split
    · exact congrArg (fun v => k0_pay2 (k0_pay3 x0 x1) (View.ld v (colSlice i)) _) hw
    · exact congrFun hw y

end Cert.Proof.K

end
-- ==== Proof.K.Data.lean ====
import proofs.«117525_j755914244601_2_alg».proof.Proof.KI.Data
/-
  The pipeline's proof data for the chamfer kernel, the body obligation at every grid point, and the frame run.

  What the two result buffers hold after each grid point is defined by recursion along the grid's row-major walk
  (`outsAt`): at a point the body's result (`rowOut`, `colOut`) over what the point before left, except that the
  row-minimum buffer restarts from +∞ where the second-cloud tile is the first of its sweep (every eighth point) and the
  column-minimum buffer where a new batch starts (every sixty-fourth point). The row-minimum block is written back after
  the last second-cloud tile (points ≡ 7 mod 8) and the column-minimum block after a batch's last point (≡ 63 mod 64),
  so between two write-backs a buffer still holds what the point before left, which is exactly where the body reads it.
-/
import proofs.«117525_j755914244601_2_alg».proof.Proof.K.Runs

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first cloud's tile at point `t`, as the array holds it when the region is entered. -/
abbrev tile0 (c : Dev nD) (t : Fin cfg0.N) : Vec F S1x1024x3 .f32 := iblk m c 0 t
/-- The second cloud's tile at point `t`. -/
abbrev tile1 (c : Dev nD) (t : Fin cfg0.N) : Vec F S1x1024x3 .f32 := iblk m c 1 t

/-- One grid point's effect on the pair (row-minimum buffer, column-minimum buffer), from what the point before left. -/
def stepOut (c : Dev nD) (t : Fin cfg0.N) (prev : Vec F S1x1x1024 .f32 × Vec F S1x1x8192 .f32) :
    Vec F S1x1x1024 .f32 × Vec F S1x1x8192 .f32 :=
  (rowOut (tile0 m c t) (tile1 m c t) (if t.val % 8 = 0 then k0_pay4 else prev.1),
   colOut (grid0.coords t) (tile0 m c t) (tile1 m c t) (if t.val % 64 = 0 then k0_pay1 else prev.2))

/-- What the two result buffers hold after the body at position `n` of the walk. -/
def outsAt (c : Dev nD) : (n : ℕ) → n < cfg0.N → Vec F S1x1x1024 .f32 × Vec F S1x1x8192 .f32
  | 0, hn => stepOut m c ⟨0, hn⟩ (k0_pay4, k0_pay1)
  | n + 1, hn => stepOut m c ⟨n + 1, hn⟩ (outsAt c n (Nat.lt_of_succ_lt hn))

/-- The point before `t`. -/
abbrev predPt (t : Fin cfg0.N) : Fin cfg0.N := ⟨t.val - 1, Nat.lt_of_le_of_lt (Nat.sub_le _ _) t.isLt⟩

/-- Past the first point, `outsAt` is one step over the point before. -/
theorem outsAt_pos (c : Dev nD) (t : Fin cfg0.N) (ht : t.val ≠ 0) :
    outsAt m c t.val t.isLt = stepOut m c t (outsAt m c (predPt t).val (predPt t).isLt) := by
  obtain ⟨n, hn⟩ := t
  cases n with
  | zero => exact absurd rfl ht
  | succ n => rfl

/-- At the first point of a batch both buffers restart. -/
theorem outsAt_A (c : Dev nD) (t : Fin cfg0.N) (h0 : t.val % 8 = 0) (h1 : t.val % 64 = 0) :
    outsAt m c t.val t.isLt = (rowOut (tile0 m c t) (tile1 m c t) k0_pay4, colOut (grid0.coords t) (tile0 m c t) (tile1 m c t) k0_pay1) := by
  obtain ⟨n, hn⟩ := t
  cases n with
  | zero => unfold outsAt stepOut; rw [if_pos h0, if_pos h1]
  | succ n => unfold outsAt stepOut; rw [if_pos h0, if_pos h1]

/-- Where only the row minimum restarts, the column-minimum buffer continues from the point before. -/
theorem outsAt_C (c : Dev nD) (t : Fin cfg0.N) (h0 : t.val % 8 = 0) (h1 : ¬t.val % 64 = 0) :
    outsAt m c t.val t.isLt = (rowOut (tile0 m c t) (tile1 m c t) k0_pay4,
      colOut (grid0.coords t) (tile0 m c t) (tile1 m c t) (outsAt m c (predPt t).val (predPt t).isLt).2) := by
  rw [outsAt_pos m c t (fun h => h1 (by rw [h]))]
  unfold stepOut; rw [if_pos h0, if_neg h1]

/-- Elsewhere both continue from the point before. -/
theorem outsAt_B (c : Dev nD) (t : Fin cfg0.N) (h0 : ¬t.val % 8 = 0) (h1 : ¬t.val % 64 = 0) :
    outsAt m c t.val t.isLt = (rowOut (tile0 m c t) (tile1 m c t) (outsAt m c (predPt t).val (predPt t).isLt).1,
      colOut (grid0.coords t) (tile0 m c t) (tile1 m c t) (outsAt m c (predPt t).val (predPt t).isLt).2) := by
  rw [outsAt_pos m c t (fun h => h1 (by rw [h]))]
  unfold stepOut; rw [if_neg h0, if_neg h1]

/-! ## The pipeline's proof data -/

/-- The proof data of the one pipeline on core `c`: the arrays as the region finds them; after the body at point `t`
    each input's buffer at its tile and the two results' at `outsAt`; the invariant is the scoped rest and the generator
    register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]
theorem after0_3 (c : Dev nD) (t : Fin cfg0.N) : (dats m 0 c).after 3 t = (outsAt m c t.val t.isLt).2 := by dsimp only [dats]

/-- Each input's current staging buffer holds its tile at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Within a sweep of second-cloud tiles the row-minimum buffer holds what the point before left: it is written back
    only after the sweep's last tile. -/
theorem before0_2_kept (c : Dev nD) (t : Fin cfg0.N) (h0 : ¬t.val % 8 = 0) (d) :
    (dats m 0 c).before 2 t d = (outsAt m c (predPt t).val (predPt t).isLt).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Within a batch the column-minimum buffer holds what the point before left: it is written back only after the
    batch's last point. -/
theorem before0_3_kept (c : Dev nD) (t : Fin cfg0.N) (h1 : ¬t.val % 64 = 0) (d) :
    (dats m 0 c).before 3 t d = (outsAt m c (predPt t).val (predPt t).isLt).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: the inputs' memrefs hold their tiles; the closed forms of the two conditions say which case
    the point is in; a buffer the case continues from holds what the point before left; so that case's triple applies.
    The invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 8 = 0
  · by_cases h1 : t.val % 64 = 0
    · rw [outsAt_A m c t h0 h1]
      iintro ⟨HΦ, Ho, ⟨%d0, H0⟩, ⟨%d1, H1⟩, ⟨%d2, H2⟩, ⟨%d3, H3⟩⟩
      iapply (runA c (grid0.coords t) _ _ _ _ _ _ _ _ ((hcond0 t).mpr h0) ((hcond1 t).mpr h1) (tile0 m c t) (tile1 m c t) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_C m c t h0 h1]
      simp only [before0_3_kept m c t h1]
      iintro ⟨HΦ, Ho, ⟨%d0, H0⟩, ⟨%d1, H1⟩, ⟨%d2, H2⟩, ⟨%d3, H3⟩⟩
      iapply (runC c (grid0.coords t) _ _ _ _ _ _ _ _ ((hcond0 t).mpr h0) (fun h => h1 ((hcond1 t).mp h)) (tile0 m c t) (tile1 m c t) _ Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [outsAt_B m c t h0 h1]
    simp only [before0_2_kept m c t h0, before0_3_kept m c t h1]
    iintro ⟨HΦ, Ho, ⟨%d0, H0⟩, ⟨%d1, H1⟩, ⟨%d2, H2⟩, ⟨%d3, H3⟩⟩
    iapply (runB c (grid0.coords t) _ _ _ _ _ _ _ _ (fun h => h0 ((hcond0 t).mp h)) (fun h => h1 ((hcond1 t).mp h)) (tile0 m c t) (tile1 m c t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data, and every other buffer as the two
    reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K

end
-- ==== Proof.Spec.lean ====
/-
  The mathematics of the chamfer distance, stated once over the extended reals.

  For two point clouds `X1`, `X2` of shape [4, 8192, 3] the squared distance between point `r` of the first and point
  `l` of the second cloud of batch `b` is written the way both programs compute it,
      dist b r l = (Σ_d X1[b,r,d]² + Σ_d X2[b,l,d]²) − 2 · Σ_d X1[b,r,d] · X2[b,l,d],
  and the two results are its minima: `d1 b r = ⨅ l, dist b r l` and `d2 b l = ⨅ r, dist b r l`. The same
  expression on one pair of [1, 1024, 3] tiles is `bdist`. The lemmas below say that a minimum taken tile by tile
  (eight tiles of 1024) is the minimum over the whole axis, and that a fold of `min` from +∞ is an infimum: only
  commutativity, associativity and idempotence of `min` are used, never finiteness.
-/
import Idealize.ShloMosaic.PureOps.Ideal
import Idealize.ShloMosaic.PureOps.Ideal.Laws
import Idealize.ShloMosaic.Lib.ValueIdx
import Mathlib.Data.Finset.Lattice.Fold
import Mathlib.Data.Finset.Range
import Mathlib.Data.Fintype.Lattice

noncomputable section

namespace Cert.Proof.Spec

open Idealize.ShloMosaic Idealize.ShloMosaic.ValueIdx

/-- A point cloud: 4 batches of 8192 points in 3 coordinates. -/
abbrev Cloud := FVec Ideal (⟨3, ![4, 8192, 3]⟩ : Shape) .f32
/-- One tile of a cloud: 1024 points of one batch. -/
abbrev Tile := FVec Ideal (⟨3, ![1, 1024, 3]⟩ : Shape) .f32

/-- The literal 2.0 both programs multiply the cross term by (never evaluated: the same word on both sides). -/
def two : EReal := Ideal.ofBits .f32 0x40000000#32

/-- Squared distance between point `p` of tile `x0` and point `q` of tile `x1`, as ‖x‖² + ‖y‖² − 2 x·y. -/
def bdist (x0 x1 : Tile) (p q : Fin 1024) : EReal :=
  ((∑ d : Fin 3, x0 (ix3 0 p d) * x0 (ix3 0 p d)) + (∑ d : Fin 3, x1 (ix3 0 q d) * x1 (ix3 0 q d)))
    - two * (∑ d : Fin 3, x0 (ix3 0 p d) * x1 (ix3 0 q d))

/-- Squared distance between point `r` of the first cloud and point `l` of the second, in batch `b`. -/
def dist (X1 X2 : Cloud) (b : Fin 4) (r l : Fin 8192) : EReal :=
  ((∑ d : Fin 3, X1 (ix3 b r d) * X1 (ix3 b r d)) + (∑ d : Fin 3, X2 (ix3 b l d) * X2 (ix3 b l d)))
    - two * (∑ d : Fin 3, X1 (ix3 b r d) * X2 (ix3 b l d))

/-- Nearest squared distance from point `r` of the first cloud to the second cloud. -/
def d1 (X1 X2 : Cloud) (b : Fin 4) (r : Fin 8192) : EReal := ⨅ l : Fin 8192, dist X1 X2 b r l
/-- Nearest squared distance from point `l` of the second cloud to the first cloud. -/
def d2 (X1 X2 : Cloud) (b : Fin 4) (l : Fin 8192) : EReal := ⨅ r : Fin 8192, dist X1 X2 b r l

/-- The word 0x7F800000 is +∞. -/
theorem ofBits_inf : Ideal.ofBits .f32 0x7F800000#32 = (⊤ : EReal) := by simp [Ideal.ofBits, Ideal.ieee]

/-- A fold of `min` from +∞ over all of `Fin n` is the infimum. -/
theorem fold_min_eq_iInf {n : ℕ} (f : Fin n → EReal) :
    (Finset.univ : Finset (Fin n)).fold min (Ideal.ofBits .f32 0x7F800000#32) f = ⨅ k, f k := by
  -- +∞ is the top element, and a finite infimum is by definition the fold of `⊓` from `⊤`
  rw [ofBits_inf, ← Finset.inf_univ_eq_iInf]
  rfl

/-- Eight tile minima, each over 1024 consecutive positions, make the minimum over all 8192 positions. -/
theorem inf_range_tiles (g : ℕ → EReal) :
    (Finset.range 8).inf (fun a => ⨅ k : Fin 1024, g (1024 * a + k.val)) = ⨅ l : Fin 8192, g l.val := by
  apply le_antisymm
  · -- every position l = 1024 * (l / 1024) + l % 1024 lies in tile l / 1024 at offset l % 1024
    refine le_iInf fun l => ?_
    have hl : l.val < 8192 := l.isLt
    have ha : l.val / 1024 ∈ Finset.range 8 := Finset.mem_range.mpr (by omega)
    have hk : l.val % 1024 < 1024 := Nat.mod_lt _ (by norm_num)
    refine (Finset.inf_le (f := fun a => ⨅ k : Fin 1024, g (1024 * a + k.val)) ha).trans ?_
    refine (iInf_le (fun k : Fin 1024 => g (1024 * (l.val / 1024) + k.val)) ⟨l.val % 1024, hk⟩).trans ?_
    show g (1024 * (l.val / 1024) + l.val % 1024) ≤ g l.val
    rw [Nat.div_add_mod]
  · -- every offset k of tile a is the position 1024 * a + k < 8192
    refine Finset.le_inf fun a ha => ?_
    refine le_iInf fun k => ?_
    have ha' : a < 8 := Finset.mem_range.mp ha
    have hk : k.val < 1024 := k.isLt
    exact iInf_le (fun l : Fin 8192 => g l.val) ⟨1024 * a + k.val, by omega⟩

/-- One more tile joins a running minimum. -/
theorem inf_range_succ (f : ℕ → EReal) (n : ℕ) : (Finset.range (n + 1)).inf f = min ((Finset.range n).inf f) (f n) := by
  -- range (n + 1) = insert n (range n); the new element joins by `⊓`, which is `min` and commutes
  rw [Finset.range_add_one, Finset.inf_insert, inf_comm]

end Cert.Proof.Spec

end
-- ==== Proof.KI.Tiles.lean ====
/-
  The tiles the body loads at a grid point are tiles of the two clouds: at point `t` of the row-major walk of the
  (4, 8, 8) grid the batch is `t / 64`, the first cloud's tile is number `(t / 8) % 8` and the second cloud's tile is
  number `t % 8`; point `p` of tile number `a` is point `1024 · a + p` of its cloud. So the distance matrix of the two
  tiles is a 1024 × 1024 window of the batch's full distance matrix.
-/
import proofs.«117525_j755914244601_2_alg».proof.Proof.KI.Data
import proofs.«117525_j755914244601_2_alg».proof.Proof.Spec
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.ValueIdx
open Idealize.SL.Sem
open Idealize.ShloMosaic.Pipeline (Dat)
open Cert.Proof

variable (m : (ℓ : Loc nD τ sig) → Buf (Elt Ideal) ℓ) (ρ : Dev nD → PrngReg)

/-- The first cloud as the region finds it. -/
abbrev cloud1 (c : Dev nD) : Spec.Cloud := V m c main_arg0
/-- The second cloud as the region finds it. -/
abbrev cloud2 (c : Dev nD) : Spec.Cloud := V m c main_arg1

/-- The squared distance at natural-number positions (taken modulo the extents, so that it is total; every use is at
    positions inside the extents). -/
def distN (X1 X2 : Spec.Cloud) (b r l : ℕ) : EReal :=
  Spec.dist X1 X2 ⟨b % 4, Nat.mod_lt _ (by decide)⟩ ⟨r % 8192, Nat.mod_lt _ (by decide)⟩ ⟨l % 8192, Nat.mod_lt _ (by decide)⟩

/-- Inside the extents `distN` is `Spec.dist`. -/
theorem distN_eq (X1 X2 : Spec.Cloud) (b : Fin 4) (r l : Fin 8192) : distN X1 X2 b.val r.val l.val = Spec.dist X1 X2 b r l := by
  unfold distN
  congr 1
  · exact Fin.ext (Nat.mod_eq_of_lt b.isLt)
  · exact Fin.ext (Nat.mod_eq_of_lt r.isLt)
  · exact Fin.ext (Nat.mod_eq_of_lt l.isLt)

/-- The two input windows' block indices, decided over the grid: both move with the batch `t / 64` on the first axis
    and stay at 0 on the last; on the point axis the first cloud's tile is `t / 8 % 8`, the second cloud's `t % 8`. -/
theorem idx_facts : ∀ t : Fin cfg0.N, win0_0.index t (0 : Fin 3) = t.val / 64 ∧ win0_0.index t (1 : Fin 3) = t.val / 8 % 8
    ∧ win0_0.index t (2 : Fin 3) = 0 ∧ win0_1.index t (0 : Fin 3) = t.val / 64 ∧ win0_1.index t (1 : Fin 3) = t.val % 8
    ∧ win0_1.index t (2 : Fin 3) = 0 :=
  (by decide +kernel : ∀ t : Fin grid0.N, _)

/-- Entry (0, p, d) of the first cloud's tile at point `t` is entry (t / 64, 1024 · (t / 8 % 8) + p, d) of the cloud. -/
theorem tile0_apply (c : Dev nD) (t : Fin cfg0.N) (p : Fin 1024) (d : Fin 3) (hb : t.val / 64 < 4)
    (hr : 1024 * (t.val / 8 % 8) + p.val < 8192) :
    tile0 m c t (ix3 (0 : Fin 1) p d) = cloud1 m c (ix3 (⟨t.val / 64, hb⟩ : Fin 4) (⟨1024 * (t.val / 8 % 8) + p.val, hr⟩ : Fin 8192) d) := by
  obtain ⟨e0, e1, e2, -, -, -⟩ := idx_facts t
  show V m c main_arg0 (((cfg0.win 0).blk t).view.emb (ix3 (0 : Fin 1) p d)) = V m c main_arg0 _
  refine congrArg (V m c main_arg0) ?_
  funext a; apply Fin.ext
  match a with
  | ⟨0, _⟩ => show win0_0.index t (0 : Fin 3) * 1 + 1 * (0 : Fin 1).val = t.val / 64; rw [e0]; simp
  | ⟨1, _⟩ => show win0_0.index t (1 : Fin 3) * 1024 + 1 * p.val = 1024 * (t.val / 8 % 8) + p.val; omega
  | ⟨2, _⟩ => show win0_0.index t (2 : Fin 3) * 3 + 1 * d.val = d.val; omega

/-- Entry (0, q, d) of the second cloud's tile at point `t` is entry (t / 64, 1024 · (t % 8) + q, d) of the cloud. -/
theorem tile1_apply (c : Dev nD) (t : Fin cfg0.N) (q : Fin 1024) (d : Fin 3) (hb : t.val / 64 < 4)
    (hl : 1024 * (t.val % 8) + q.val < 8192) :
    tile1 m c t (ix3 (0 : Fin 1) q d) = cloud2 m c (ix3 (⟨t.val / 64, hb⟩ : Fin 4) (⟨1024 * (t.val % 8) + q.val, hl⟩ : Fin 8192) d) := by
  obtain ⟨-, -, -, e0, e1, e2⟩ := idx_facts t
  show V m c main_arg1 (((cfg0.win 1).blk t).view.emb (ix3 (0 : Fin 1) q d)) = V m c main_arg1 _
  refine congrArg (V m c main_arg1) ?_
  funext a; apply Fin.ext
  match a with
  | ⟨0, _⟩ => show win0_1.index t (0 : Fin 3) * 1 + 1 * (0 : Fin 1).val = t.val / 64; rw [e0]; simp
  | ⟨1, _⟩ => show win0_1.index t (1 : Fin 3) * 1024 + 1 * q.val = 1024 * (t.val % 8) + q.val; omega
  | ⟨2, _⟩ => show win0_1.index t (2 : Fin 3) * 3 + 1 * d.val = d.val; omega

/-- The distance matrix of the two tiles at point `t` is the window of the batch's distance matrix at the tiles'
    positions. -/
theorem bdist_tiles (c : Dev nD) (t : Fin cfg0.N) (p q : Fin 1024) :
    Spec.bdist (tile0 m c t) (tile1 m c t) p q
      = distN (cloud1 m c) (cloud2 m c) (t.val / 64) (1024 * (t.val / 8 % 8) + p.val) (1024 * (t.val % 8) + q.val) := by
  have hN : t.val < 256 := lt_of_lt_of_eq t.isLt (show cfg0.N = 256 from N_0)
  have hb : t.val / 64 < 4 := by omega
  have hr : 1024 * (t.val / 8 % 8) + p.val < 8192 := by have := p.isLt; omega
  have hl : 1024 * (t.val % 8) + q.val < 8192 := by have := q.isLt; omega
  refine Eq.trans ?_ (distN_eq (cloud1 m c) (cloud2 m c) ⟨t.val / 64, hb⟩ ⟨_, hr⟩ ⟨_, hl⟩).symm
  unfold Spec.bdist Spec.dist
  simp only [tile0_apply m c t _ _ hb hr, tile1_apply m c t _ _ hb hl]

end Cert.Proof.KI

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KI.Payload.lean ====
/-
  The body's arithmetic at one entry, over the extended reals.

  From the two tiles the body loads it forms the 1024 × 1024 matrix of squared distances (entry (p, q) is `bdist` of
  point p of the first tile and point q of the second), takes its row minima into the running row-minimum vector and
  its column minima into a slice of the running column-minimum vector; the reset vectors hold +∞ everywhere.
-/
import proofs.«117525_j755914244601_2_alg».proof.Proof.Gen.KernelIdeal.Skeleton
import proofs.«117525_j755914244601_2_alg».proof.Proof.Spec
import proofs.«117525_j755914244601_2_alg».proof.Proof.LibKeepdims
import Idealize.ShloMosaic.Lib.Pipeline.Value
import Idealize.ShloMosaic.Lib.ValueLayout
import Idealize.ShloMosaic.PureOps.Reduce

noncomputable section

namespace Cert.Proof.KI.Pay

open Cert.KernelIdeal Cert.KernelIdeal.Gen
open Idealize.ShloMosaic Idealize.ShloMosaic.ValueIdx Idealize.ShloMosaic.Keepdims
open Cert.Proof

/-! ## The reset vectors -/

/-- The reset value of the row-minimum vector is +∞ in every lane. -/
theorem pay4_apply (y : S1x1x1024.Idx) : k0_pay4 (F := Ideal) y = (⊤ : EReal) := by
  obtain ⟨a, b, c, rfl⟩ : ∃ (a : Fin 1) (b : Fin 1) (c : Fin 1024), y = ix3 a b c := ⟨y 0, y 1, y 2, eq_ix3 y⟩
  unfold k0_pay4
  refine (shapeCast_ab_1ab_apply _ _ a b c).trans ?_
  exact Spec.ofBits_inf

/-- The reset value of the column-minimum vector is +∞ in every lane. -/
theorem pay1_apply (y : S1x1x8192.Idx) : k0_pay1 (F := Ideal) y = (⊤ : EReal) := by
  obtain ⟨a, b, c, rfl⟩ : ∃ (a : Fin 1) (b : Fin 1) (c : Fin 8192), y = ix3 a b c := ⟨y 0, y 1, y 2, eq_ix3 y⟩
  unfold k0_pay1
  refine (shapeCast_ab_1ab_apply _ _ a b c).trans ?_
  exact Spec.ofBits_inf

/-! ## The product of the two tiles, read at an entry -/

theorem lhs_dot_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
theorem lhs_dot_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
theorem rhs_dot_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
theorem rhs_dot_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- The product of a 1024 × 3 matrix with the transpose of another, accumulated into zero: entry (p, q) is the sum over
    the three coordinates of the products of row p of the first with row q of the second. -/
theorem dot_apply (A B : FVec Ideal S1024x3 .f32) (p q : Fin 1024) :
    matmul dot_S1024x3_S1024x3_S1024x1024_1_1_0_0_n_n (some .fp32) A B (constant (F := Ideal) S1024x1024 .f32 0x00000000#32) (ix2 p q)
      = ∑ k : Fin 3, A (ix2 p k) * B (ix2 q k) := by
  refine (Ideal.matmul_constant_zero_apply dot_S1024x3_S1024x3_S1024x1024_1_1_0_0_n_n (some .fp32) A B (ix2 p q)).trans ?_
  rw [← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 p q) ((contrEquiv1 dot_S1024x3_S1024x3_S1024x1024_1_1_0_0_n_n 3 rfl rfl).symm k) = ix2 p k := funext fun a => Fin.ext (by
    match a with
    | ⟨0, _⟩ => exact lhs_dot_0 _ _
    | ⟨1, _⟩ => exact (lhs_dot_1 _ _).trans hk)
  have er : dot_S1024x3_S1024x3_S1024x1024_1_1_0_0_n_n.rhsIdx (ix2 p q) ((contrEquiv1 dot_S1024x3_S1024x3_S1024x1024_1_1_0_0_n_n 3 rfl rfl).symm k) = ix2 q k := funext fun a => Fin.ext (by
    match a with
    | ⟨0, _⟩ => exact rhs_dot_0 _ _
    | ⟨1, _⟩ => exact (rhs_dot_1 _ _).trans hk)
  rw [el, er]

/-! ## The squared norms of a tile's points -/

/-- The lane sum of the squares of a tile recast as a 1024 × 3 matrix: at p, the squared norm of point p. -/
theorem sqnorm_apply (x : Vec Ideal S1x1024x3 .f32) (p : Fin 1024) :
    multiReduction (F := Ideal) .add [1] S1024
        (mulf (shapeCast S1024x3 x shapeCasts_S1x1024x3_S1024x3) (shapeCast S1024x3 x shapeCasts_S1x1024x3_S1024x3))
        0x00000000#32 reduces_S1024x3_S1024 (.inl rfl) rfl (ix1 p)
      = ∑ d : Fin 3, x (ix3 0 p d) * x (ix3 0 p d) := by
  refine (Ideal.multiReduction_add_single _ 0x00000000#32 reduces_S1024x3_S1024 (.inl rfl) rfl (ix1 p)).trans ?_
  refine Finset.sum_congr (s₁ := (Finset.univ : Finset (Fin 3))) rfl fun d _ => ?_
  have hl : reduces_S1024x3_S1024.lift (ix1 p) d = ix2 p d :=
    funext fun a => Fin.ext (by match a with | ⟨0, _⟩ => rfl | ⟨1, _⟩ => rfl)
  have hx : shapeCast S1024x3 x shapeCasts_S1x1024x3_S1024x3 (ix2 p d) = x (ix3 0 p d) := shapeCast_1ab_ab_apply x _ p d
  refine (congrArg (mulf (F := Ideal) (shapeCast S1024x3 x shapeCasts_S1x1024x3_S1024x3 : FVec Ideal S1024x3 .f32)
    (shapeCast S1024x3 x shapeCasts_S1x1024x3_S1024x3 : FVec Ideal S1024x3 .f32)) hl).trans ?_
  exact congrArg₂ (· * ·) hx hx

/-! ## A lane vector laid along the rows, and along the columns, of the square -/

/-- A length-1024 vector recast as a column and broadcast along the rows reads, at (p, q), its lane p. -/
theorem col_apply (v : FVec Ideal S1024 .f32) (p q : Fin 1024) :
    broadcastTo S1024x1024 (shapeCast S1024x1 v shapeCasts_S1024_S1024x1) broadcasts_S1024x1_S1024x1024 (ix2 p q) = v (ix1 p) :=
  (broadcastTo_a1_ab_apply _ _ p q).trans (shapeCast_a_a1_apply _ _ p 0)

/-- A length-1024 vector recast as a row and broadcast along the columns reads, at (p, q), its lane q. -/
theorem row_apply (v : FVec Ideal S1024 .f32) (p q : Fin 1024) :
    broadcastTo S1024x1024 (shapeCast S1x1024 v shapeCasts_S1024_S1x1024) broadcasts_S1x1024_S1024x1024 (ix2 p q) = v (ix1 q) :=
  (broadcastTo_1b_ab_apply _ _ p q).trans (shapeCast_a_1a_apply _ _ 0 q)

/-! ## The distance matrix -/

/-- Entry (p, q) of the distance matrix the body forms from its two tiles. -/
theorem pay3_apply (x0 x1 : Vec Ideal S1x1024x3 .f32) (p q : Fin 1024) :
    k0_pay3 (F := Ideal) x0 x1 (ix2 p q) = Spec.bdist x0 x1 p q := by
  unfold k0_pay3 Spec.bdist Spec.two
  simp only [subf_apply, addf_apply, mulf_apply, broadcast_apply]
  rw [col_apply, row_apply, sqnorm_apply, sqnorm_apply, dot_apply]
  simp only [shapeCast_1ab_ab_apply]
  rfl

/-! ## Minima along the rows and along the columns of the square -/

/-- The minimum reduction of a 1024 × 1024 matrix along its second axis, from +∞: at j, the infimum of row j. -/
theorem rowmin_apply (M : FVec Ideal S1024x1024 .f32) (j : Fin 1024) :
    multiReduction (F := Ideal) .minimumf [1] S1024 M 0x7F800000#32 reduces_S1024x1024_S1024 (.inl rfl) rfl (ix1 j)
      = ⨅ q : Fin 1024, M (ix2 j q) := by
  refine (multiReduction_minimumf_eq_fold M 0x7F800000#32 reduces_S1024x1024_S1024 (.inl rfl) rfl (ix1 j)).trans ?_
  refine (reduces_S1024x1024_S1024.fold_filter_drop_single _ _ M (ix1 j)).trans ?_
  refine Eq.trans ?_ (Spec.fold_min_eq_iInf (n := 1024) fun q => M (ix2 j q))
  have hf : (M ∘ reduces_S1024x1024_S1024.lift (ix1 j)) = fun q : Fin 1024 => M (ix2 j q) :=
    funext fun q => congrArg M (funext fun a => Fin.ext (by match a with | ⟨0, _⟩ => rfl | ⟨1, _⟩ => rfl))
  rw [hf]
  rfl

/-- The minimum reduction of a 1024 × 1024 matrix along its first axis, from +∞: at k, the infimum of column k. -/
theorem colmin_apply (M : FVec Ideal S1024x1024 .f32) (k : Fin 1024) :
    multiReduction (F := Ideal) .minimumf [0] S1024 M 0x7F800000#32 reduces_S1024x1024_S1024_2 (.inl rfl) rfl (ix1 k)
      = ⨅ p : Fin 1024, M (ix2 p k) := by
  refine (multiReduction_minimumf_eq_fold M 0x7F800000#32 reduces_S1024x1024_S1024_2 (.inl rfl) rfl (ix1 k)).trans ?_
  refine (reduces_S1024x1024_S1024_2.fold_filter_drop_single _ _ M (ix1 k)).trans ?_
  refine Eq.trans ?_ (Spec.fold_min_eq_iInf (n := 1024) fun p => M (ix2 p k))
  have hf : (M ∘ reduces_S1024x1024_S1024_2.lift (ix1 k)) = fun p : Fin 1024 => M (ix2 p k) :=
    funext fun p => congrArg M (funext fun a => Fin.ext (by match a with | ⟨0, _⟩ => rfl | ⟨1, _⟩ => rfl))
  rw [hf]
  rfl

/-! ## The running minima -/

/-- Lane j of the new row-minimum vector: the old lane against the minimum of row j of the distance matrix. -/
theorem pay5_apply (x0 x1 : Vec Ideal S1x1024x3 .f32) (prev : Vec Ideal S1x1x1024 .f32) (j : Fin 1024) :
    k0_pay5 (F := Ideal) x0 x1 prev (ix3 0 0 j) = min (prev (ix3 0 0 j)) (⨅ q : Fin 1024, Spec.bdist x0 x1 j q) := by
  unfold k0_pay5
  refine (shapeCast_ab_1ab_apply _ _ 0 0 j).trans ?_
  refine (minimumf_apply _ _ _).trans ?_
  refine congrArg₂ min (shapeCast_1ab_ab_apply prev _ 0 j) ?_
  refine (shapeCast_a_1a_apply _ _ 0 j).trans ?_
  refine (rowmin_apply _ j).trans ?_
  exact iInf_congr fun q => pay3_apply x0 x1 j q

/-- Lane k of the new column-minimum slice: the old lane against the minimum of column k of the distance matrix. -/
theorem pay2_apply (x0 x1 : Vec Ideal S1x1024x3 .f32) (v : Vec Ideal S1x1x1024 .f32) (k : Fin 1024) :
    k0_pay2 (F := Ideal) (k0_pay3 (F := Ideal) x0 x1) v (ix3 0 0 k) = min (v (ix3 0 0 k)) (⨅ p : Fin 1024, Spec.bdist x0 x1 p k) := by
  unfold k0_pay2
  refine (shapeCast_ab_1ab_apply _ _ 0 0 k).trans ?_
  refine (minimumf_apply _ _ _).trans ?_
  refine congrArg₂ min (shapeCast_1ab_ab_apply v _ 0 k) ?_
  refine (shapeCast_a_1a_apply _ _ 0 k).trans ?_
  refine (colmin_apply _ k).trans ?_
  exact iInf_congr fun p => pay3_apply x0 x1 p k

end Cert.Proof.KI.Pay

end
-- ==== Proof.KI.Invariant.lean ====
/-
  What the two running-minimum buffers hold after each grid point, in closed form.

  After point `t` (batch `t / 64`, first-cloud tile `n = (t / 8) % 8`, second-cloud tile `mm = t % 8`):
    · lane j of the row-minimum buffer is the minimum of row `1024 n + j` of the batch's distance matrix over the
      second-cloud tiles 0 … mm seen so far in this sweep;
    · lane l of the column-minimum buffer (l in second-cloud tile `a = l / 1024`) is the minimum of column l over the
      first-cloud tiles seen so far for that slice: tiles 0 … n if the slice has already been visited in the current
      sweep (a ≤ mm), tiles 0 … n − 1 otherwise (none at all, i.e. +∞, when n = 0).
  Both by induction along the walk: a reset point starts from +∞, every other point continues from the point before,
  which has the same batch and either the same first-cloud tile and the previous second-cloud tile, or the previous
  first-cloud tile and the last second-cloud tile.
-/
import proofs.«117525_j755914244601_2_alg».proof.Proof.KI.Tiles
import proofs.«117525_j755914244601_2_alg».proof.Proof.KI.Payload

set_option maxRecDepth 16384

noncomputable section

namespace Cert.Proof.KI

open Cert.KernelIdeal Cert.KernelIdeal.Gen
open Idealize.ShloMosaic Idealize.ShloMosaic.TcCoe Idealize.ShloMosaic.ValueIdx
open Idealize.SL.Sem
open Idealize.ShloMosaic.Pipeline (Dat)
open Cert.Proof

variable (m : (ℓ : Loc nD τ sig) → Buf (Elt Ideal) ℓ) (ρ : Dev nD → PrngReg)

/-! ## One step of each buffer, in closed form -/

/-- The row-minimum step: from the minimum over the second-cloud tiles before the current one to the minimum over the
    tiles up to and including it. -/
theorem row_step (c : Dev nD) (t : Fin cfg0.N) (prev : Vec Ideal S1x1x1024 .f32) (j : Fin 1024)
    (hprev : prev (ix3 0 0 j) = (Finset.range (t.val % 8)).inf (fun a => ⨅ k : Fin 1024,
      distN (cloud1 m c) (cloud2 m c) (t.val / 64) (1024 * (t.val / 8 % 8) + j.val) (1024 * a + k.val))) :
    rowOut (tile0 m c t) (tile1 m c t) prev (ix3 0 0 j)
      = (Finset.range (t.val % 8 + 1)).inf (fun a => ⨅ k : Fin 1024,
          distN (cloud1 m c) (cloud2 m c) (t.val / 64) (1024 * (t.val / 8 % 8) + j.val) (1024 * a + k.val)) := by
  unfold rowOut
  rw [Pay.pay5_apply, hprev, Spec.inf_range_succ]
  refine congrArg (min _) ?_
  exact iInf_congr fun q => bdist_tiles m c t j q

/-- The column-minimum step: a lane of the current second-cloud tile takes the minimum of its column of the tiles'
    distance matrix in; every other lane keeps what it held. -/
theorem col_step (c : Dev nD) (t : Fin cfg0.N) (prev : Vec Ideal S1x1x8192 .f32) (l : Fin 8192) :
    colOut (grid0.coords t) (tile0 m c t) (tile1 m c t) prev (ix3 0 0 l)
      = if l.val / 1024 = t.val % 8 then
          min (prev (ix3 0 0 l)) (⨅ p : Fin 1024,
            distN (cloud1 m c) (cloud2 m c) (t.val / 64) (1024 * (t.val / 8 % 8) + p.val) l.val)
        else prev (ix3 0 0 l) := by
  have hl : l.val < 8192 := l.isLt
  have hoff : ∀ a, k0_off1 (grid0.coords t) a = (![0, 0, 1024 * (t.val % 8)] : Fin 3 → ℕ) a :=
    fun a => congrFun (off1_eq t) a
  show (if h : ∀ a, k0_off1 (grid0.coords t) a ≤ ((ix3 0 0 l : S1x1x8192.Idx) a).val
        ∧ ((ix3 0 0 l : S1x1x8192.Idx) a).val < k0_off1 (grid0.coords t) a + S1x1x1024.size a then _ else _) = _
  by_cases hin : l.val / 1024 = t.val % 8
  · -- inside the slice: the local lane is l − 1024 (t % 8), and the slice read there is the buffer read at l
    have hmem : ∀ a, k0_off1 (grid0.coords t) a ≤ ((ix3 0 0 l : S1x1x8192.Idx) a).val
        ∧ ((ix3 0 0 l : S1x1x8192.Idx) a).val < k0_off1 (grid0.coords t) a + S1x1x1024.size a := by
      intro a
      rw [hoff a]
      match a with
      | ⟨0, _⟩ => exact ⟨Nat.le_refl 0, Nat.zero_lt_one⟩
      | ⟨1, _⟩ => exact ⟨Nat.le_refl 0, Nat.zero_lt_one⟩
      | ⟨2, _⟩ =>
        show 1024 * (t.val % 8) ≤ l.val ∧ l.val < 1024 * (t.val % 8) + 1024
        omega
    have hlo : 1024 * (t.val % 8) ≤ l.val := by omega
    have hk : Rect.unitLocal (s := S1x1x8192) (off := k0_off1 (grid0.coords t)) (size := S1x1x1024.size) (ix3 0 0 l) hmem
        = (ix3 0 0 ⟨l.val - 1024 * (t.val % 8), by omega⟩ : S1x1x1024.Idx) := by
      funext a
      apply Fin.ext
      rw [Rect.unitLocal_val, hoff a]
      match a with
      | ⟨0, _⟩ => rfl
      | ⟨1, _⟩ => rfl
      | ⟨2, _⟩ => rfl
    rw [dif_pos hmem, if_pos hin, hk, Pay.pay2_apply]
    refine congrArg₂ min ?_ ?_
    · show prev ((colSlice (grid0.coords t)).idx (ix3 0 0 _)) = prev (ix3 0 0 l)
      refine congrArg prev (funext fun a => Fin.ext ?_)
      rw [LoadRect.idx_apply]
      show k0_off1 (grid0.coords t) a + 1 * _ = _
      rw [hoff a]
      match a with
      | ⟨0, _⟩ => rfl
      | ⟨1, _⟩ => rfl
      | ⟨2, _⟩ =>
        show 1024 * (t.val % 8) + 1 * (l.val - 1024 * (t.val % 8)) = l.val
        omega
    · refine iInf_congr fun p => ?_
      rw [bdist_tiles]
      refine congrArg (distN _ _ _ _) ?_
      show 1024 * (t.val % 8) + (l.val - 1024 * (t.val % 8)) = l.val
      omega
  · -- outside the slice: axis 2 refutes membership
    have hmem : ¬∀ a, k0_off1 (grid0.coords t) a ≤ ((ix3 0 0 l : S1x1x8192.Idx) a).val
        ∧ ((ix3 0 0 l : S1x1x8192.Idx) a).val < k0_off1 (grid0.coords t) a + S1x1x1024.size a := by
      intro h
      have h2 := h ⟨2, by decide⟩
      rw [hoff ⟨2, by decide⟩] at h2
      have h2' : 1024 * (t.val % 8) ≤ l.val ∧ l.val < 1024 * (t.val % 8) + 1024 := h2
      omega
    rw [dif_neg hmem, if_neg hin]

/-- Closing a column lane: the buffer's value `v` is the minimum over the first `P` first-cloud tiles; inside the
    current slice `P` is the current tile's number and the step adds that tile, outside it `P` is already the count
    the closed form names. -/
theorem col_close (f : ℕ → EReal) (a mm n P : ℕ) (v : EReal) (hv : v = (Finset.range P).inf f)
    (hin : a = mm → P = n) (hout : a ≠ mm → P = if a ≤ mm then n + 1 else n) :
    (if a = mm then min v (f n) else v) = (Finset.range (if a ≤ mm then n + 1 else n)).inf f := by
  subst hv
  by_cases h : a = mm
  · rw [if_pos h, if_pos (le_of_eq h), hin h, Spec.inf_range_succ]
  · rw [if_neg h, hout h]

/-! ## The closed forms, by induction along the walk -/

/-- Both closed forms at a point, together: a reset point starts from +∞, every other point continues from the point
    before it. -/
theorem inv_aux (c : Dev nD) : ∀ (n : ℕ) (t : Fin cfg0.N), t.val = n →
    (∀ j : Fin 1024, (outsAt (F := Ideal) m c t.val t.isLt).1 (ix3 0 0 j)
      = (Finset.range (t.val % 8 + 1)).inf (fun a => ⨅ k : Fin 1024,
          distN (cloud1 m c) (cloud2 m c) (t.val / 64) (1024 * (t.val / 8 % 8) + j.val) (1024 * a + k.val)))
    ∧ (∀ l : Fin 8192, (outsAt (F := Ideal) m c t.val t.isLt).2 (ix3 0 0 l)
      = (Finset.range (if l.val / 1024 ≤ t.val % 8 then t.val / 8 % 8 + 1 else t.val / 8 % 8)).inf (fun a => ⨅ p : Fin 1024,
          distN (cloud1 m c) (cloud2 m c) (t.val / 64) (1024 * a + p.val) l.val)) := by
  intro n
  induction n using Nat.strong_induction_on with
  | _ n ih =>
    intro t htn
    have hN : t.val < 256 := lt_of_lt_of_eq t.isLt (show cfg0.N = 256 from N_0)
    have hp : (predPt t).val = t.val - 1 := rfl
    by_cases h0 : t.val % 8 = 0
    · by_cases h1 : t.val % 64 = 0
      · -- the first point of a batch: both buffers start from +∞
        rw [outsAt_A m c t h0 h1]
        refine ⟨fun j => ?_, fun l => ?_⟩
        · show rowOut (tile0 m c t) (tile1 m c t) (k0_pay4 (F := Ideal)) (ix3 0 0 j) = _
          refine row_step m c t _ j ?_
          rw [Pay.pay4_apply, h0, Finset.range_zero, Finset.inf_empty]
        · show colOut (grid0.coords t) (tile0 m c t) (tile1 m c t) (k0_pay1 (F := Ideal)) (ix3 0 0 l) = _
          have hl : l.val < 8192 := l.isLt
          rw [col_step, Pay.pay1_apply]
          refine col_close (fun a => ⨅ p : Fin 1024, distN (cloud1 m c) (cloud2 m c) (t.val / 64) (1024 * a + p.val) l.val)
            (l.val / 1024) (t.val % 8) (t.val / 8 % 8) 0 ⊤ (by rw [Finset.range_zero, Finset.inf_empty]) (fun _ => by omega) (fun hne => ?_)
          rw [if_neg (by omega)]
          omega
      · -- a sweep's first point inside a batch: the row minimum starts from +∞, the column minimum continues
        obtain ⟨-, ihc⟩ := ih (t.val - 1) (by omega) (predPt t) hp
        rw [outsAt_C m c t h0 h1]
        refine ⟨fun j => ?_, fun l => ?_⟩
        · show rowOut (tile0 m c t) (tile1 m c t) (k0_pay4 (F := Ideal)) (ix3 0 0 j) = _
          refine row_step m c t _ j ?_
          rw [Pay.pay4_apply, h0, Finset.range_zero, Finset.inf_empty]
        · show colOut (grid0.coords t) (tile0 m c t) (tile1 m c t) (outsAt m c (predPt t).val (predPt t).isLt).2 (ix3 0 0 l) = _
          have hl : l.val < 8192 := l.isLt
          have hv := ihc l
          rw [show (predPt t).val / 64 = t.val / 64 by omega] at hv
          rw [col_step]
          refine col_close (fun a => ⨅ p : Fin 1024, distN (cloud1 m c) (cloud2 m c) (t.val / 64) (1024 * a + p.val) l.val)
            (l.val / 1024) (t.val % 8) (t.val / 8 % 8) _ _ hv (fun he => ?_) (fun hne => ?_)
          · rw [if_pos (by omega)]; omega
          · rw [if_pos (by omega), if_neg (by omega)]; omega
    · -- inside a sweep: both buffers continue from the point before
      have h1 : ¬t.val % 64 = 0 := by omega
      obtain ⟨ihr, ihc⟩ := ih (t.val - 1) (by omega) (predPt t) hp
      rw [outsAt_B m c t h0 h1]
      refine ⟨fun j => ?_, fun l => ?_⟩
      · show rowOut (tile0 m c t) (tile1 m c t) (outsAt m c (predPt t).val (predPt t).isLt).1 (ix3 0 0 j) = _
        refine row_step m c t _ j ?_
        have hv := ihr j
        rw [show (predPt t).val % 8 + 1 = t.val % 8 by omega, show (predPt t).val / 64 = t.val / 64 by omega,
          show (predPt t).val / 8 % 8 = t.val / 8 % 8 by omega] at hv
        exact hv
      · show colOut (grid0.coords t) (tile0 m c t) (tile1 m c t) (outsAt m c (predPt t).val (predPt t).isLt).2 (ix3 0 0 l) = _
        have hl : l.val < 8192 := l.isLt
        have hv := ihc l
        rw [show (predPt t).val / 64 = t.val / 64 by omega] at hv
        rw [col_step]
        refine col_close (fun a => ⨅ p : Fin 1024, distN (cloud1 m c) (cloud2 m c) (t.val / 64) (1024 * a + p.val) l.val)
          (l.val / 1024) (t.val % 8) (t.val / 8 % 8) _ _ hv (fun he => ?_) (fun hne => ?_)
        · rw [if_neg (by omega)]; omega
        · by_cases hle : l.val / 1024 ≤ t.val % 8
          · rw [if_pos hle, if_pos (by omega)]; omega
          · rw [if_neg hle, if_neg (by omega)]; omega

/-- The row-minimum buffer after point `t`. -/
theorem row_inv (c : Dev nD) (t : Fin cfg0.N) (j : Fin 1024) :
    (outsAt (F := Ideal) m c t.val t.isLt).1 (ix3 0 0 j)
      = (Finset.range (t.val % 8 + 1)).inf (fun a => ⨅ k : Fin 1024,
          distN (cloud1 m c) (cloud2 m c) (t.val / 64) (1024 * (t.val / 8 % 8) + j.val) (1024 * a + k.val)) :=
  (inv_aux m c t.val t rfl).1 j

/-- The column-minimum buffer after point `t`. -/
theorem col_inv (c : Dev nD) (t : Fin cfg0.N) (l : Fin 8192) :
    (outsAt (F := Ideal) m c t.val t.isLt).2 (ix3 0 0 l)
      = (Finset.range (if l.val / 1024 ≤ t.val % 8 then t.val / 8 % 8 + 1 else t.val / 8 % 8)).inf (fun a => ⨅ p : Fin 1024,
          distN (cloud1 m c) (cloud2 m c) (t.val / 64) (1024 * a + p.val) l.val) :=
  (inv_aux m c t.val t rfl).2 l

end Cert.Proof.KI

end
-- ==== Proof.KI.Final.lean ====
/-
  The two result arrays after the run, and the program's two results.

  The row-minimum block of (batch b, first-cloud tile n) is written back after the sweep's last second-cloud tile, when
  lane j holds the minimum of row `1024 n + j` over all eight tiles, i.e. over the whole second cloud: that is `d1`.
  The column-minimum block of batch b is written back after the batch's last point, when lane l holds the minimum of
  column l over all eight first-cloud tiles: that is `d2`. The write-backs tile the two [4, 1, 8192] arrays, and the two
  reshapes after the region only drop the unit axis.
-/
import proofs.«117525_j755914244601_2_alg».proof.Proof.KI.Invariant
import Idealize.ShloMosaic.Lib.Pipeline.Value
import Idealize.ShloMosaic.Lib.StableHlo.Run

set_option maxRecDepth 16384

noncomputable section

namespace Cert.Proof.KI

open Cert.KernelIdeal Cert.KernelIdeal.Gen
open Idealize.ShloMosaic Idealize.ShloMosaic.TcCoe Idealize.ShloMosaic.ValueIdx
open Idealize.SL.Sem
open Idealize.ShloMosaic.Pipeline (Dat)
open Cert.Proof

variable (m : (ℓ : Loc nD τ sig) → Buf (Elt Ideal) ℓ) (ρ : Dev nD → PrngReg)

/-- Nearest squared distance from row `r` of batch `b`, at natural-number positions. -/
def d1N (X1 X2 : Spec.Cloud) (b r : ℕ) : EReal := ⨅ l : Fin 8192, distN X1 X2 b r l.val
/-- Nearest squared distance to column `l` of batch `b`, at natural-number positions. -/
def d2N (X1 X2 : Spec.Cloud) (b l : ℕ) : EReal := ⨅ r : Fin 8192, distN X1 X2 b r.val l

theorem d1N_eq (X1 X2 : Spec.Cloud) (b : Fin 4) (r : Fin 8192) : d1N X1 X2 b.val r.val = Spec.d1 X1 X2 b r :=
  iInf_congr fun l => distN_eq X1 X2 b r l
theorem d2N_eq (X1 X2 : Spec.Cloud) (b : Fin 4) (l : Fin 8192) : d2N X1 X2 b.val l.val = Spec.d2 X1 X2 b l :=
  iInf_congr fun r => distN_eq X1 X2 b r l

/-- What the first result's [4, 1, 8192] array ends holding. -/
def G2 (c : Dev nD) : S4x1x8192.Idx → EReal := fun i => d1N (cloud1 m c) (cloud2 m c) (i 0).val (i 2).val
/-- What the second result's [4, 1, 8192] array ends holding. -/
def G3 (c : Dev nD) : S4x1x8192.Idx → EReal := fun i => d2N (cloud1 m c) (cloud2 m c) (i 0).val (i 2).val

/-- The two result windows' block indices along the walk: batch, 0, and (for the row minima) the first-cloud tile. -/
theorem idx_out : ∀ t : Fin cfg0.N, win0_2.index t (0 : Fin 3) = t.val / 64 ∧ win0_2.index t (1 : Fin 3) = 0
    ∧ win0_2.index t (2 : Fin 3) = t.val / 8 % 8 ∧ win0_3.index t (0 : Fin 3) = t.val / 64 ∧ win0_3.index t (1 : Fin 3) = 0
    ∧ win0_3.index t (2 : Fin 3) = 0 :=
  (by decide +kernel : ∀ t : Fin grid0.N, _)

/-- What a write-back of the row-minimum block writes is that block of `G2`. -/
theorem flushed2_eq (c : Dev nD) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after0_2]
  have h7 : t.val % 8 = 7 := (flush0_2 t).mp hf
  obtain ⟨e0, e1, e2, -, -, -⟩ := idx_out t
  funext y
  show (outsAt m c t.val t.isLt).1 y = G2 m c (((cfg0.win 2).blk t).view.emb y)
  obtain ⟨a, b, j, rfl⟩ : ∃ (a : Fin 1) (b : Fin 1) (j : Fin 1024), y = ix3 a b j := ⟨y 0, y 1, y 2, eq_ix3 y⟩
  obtain rfl : a = 0 := Subsingleton.elim _ _
  obtain rfl : b = 0 := Subsingleton.elim _ _
  rw [row_inv m c t j, h7]
  refine (Spec.inf_range_tiles (fun l => distN (cloud1 m c) (cloud2 m c) (t.val / 64) (1024 * (t.val / 8 % 8) + j.val) l)).trans ?_
  have h0 : ((((cfg0.win 2).blk t).view.emb (ix3 0 0 j)) 0).val = t.val / 64 := by
    show win0_2.index t (0 : Fin 3) * 1 + 1 * (0 : Fin 1).val = _
    rw [e0]; simp
  have h2 : ((((cfg0.win 2).blk t).view.emb (ix3 0 0 j)) 2).val = 1024 * (t.val / 8 % 8) + j.val := by
    show win0_2.index t (2 : Fin 3) * 1024 + 1 * j.val = _
    rw [e2]; omega
  unfold G2 d1N
  rw [h0, h2]

/-- What a write-back of the column-minimum block writes is that block of `G3`. -/
theorem flushed3_eq (c : Dev nD) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3]
  have h63 : t.val % 64 = 63 := (flush0_3 t).mp hf
  have hN : t.val < 256 := lt_of_lt_of_eq t.isLt (show cfg0.N = 256 from N_0)
  obtain ⟨-, -, -, e0, e1, e2⟩ := idx_out t
  funext y
  show (outsAt m c t.val t.isLt).2 y = G3 m c (((cfg0.win 3).blk t).view.emb y)
  obtain ⟨a, b, l, rfl⟩ : ∃ (a : Fin 1) (b : Fin 1) (l : Fin 8192), y = ix3 a b l := ⟨y 0, y 1, y 2, eq_ix3 y⟩
  obtain rfl : a = 0 := Subsingleton.elim _ _
  obtain rfl : b = 0 := Subsingleton.elim _ _
  rw [col_inv m c t l]
  have hl : l.val < 8192 := l.isLt
  have hcnt : (if l.val / 1024 ≤ t.val % 8 then t.val / 8 % 8 + 1 else t.val / 8 % 8) = 8 := by
    rw [if_pos (by omega)]; omega
  rw [hcnt]
  refine (Spec.inf_range_tiles (fun r => distN (cloud1 m c) (cloud2 m c) (t.val / 64) r l.val)).trans ?_
  have h0 : ((((cfg0.win 3).blk t).view.emb (ix3 0 0 l)) 0).val = t.val / 64 := by
    show win0_3.index t (0 : Fin 3) * 1 + 1 * (0 : Fin 1).val = _
    rw [e0]; simp
  have h2 : ((((cfg0.win 3).blk t).view.emb (ix3 0 0 l)) 2).val = l.val := by
    show win0_3.index t (2 : Fin 3) * 8192 + 1 * l.val = _
    rw [e2]; omega
  unfold G3 d2N
  rw [h0, h2]

/-- An index of the first result's array lies in point `t`'s block iff each coordinate is in the block's range. -/
theorem mem_blk2 (t : Fin cfg0.N) (i : S4x1x8192.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

/-- The same for the second result's array. -/
theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Every entry of the first result's array is written back by the last point of its row tile's sweep. -/
theorem cover2 (i : S4x1x8192.Idx) : ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 8192 := (i 2).isLt
  have hlt : 64 * (i 0).val + 8 * ((i 2).val / 1024) + 7 < cfg0.N := by rw [show cfg0.N = 256 from N_0]; omega
  refine ⟨⟨64 * (i 0).val + 8 * ((i 2).val / 1024) + 7, hlt⟩, (flush0_2 _).mpr (by show (64 * (i 0).val + 8 * ((i 2).val / 1024) + 7) % 8 = 7; omega), ?_⟩
  obtain ⟨e0, e1, e2, -, -, -⟩ := idx_out ⟨64 * (i 0).val + 8 * ((i 2).val / 1024) + 7, hlt⟩
  rw [mem_blk2]
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1024 ≤ (i 2).val ∧ (i 2).val < win0_2.index _ (2 : Fin 3) * 1024 + 1024; rw [e2]; dsimp only; omega

/-- Every entry of the second result's array is written back by the last point of its batch. -/
theorem cover3 (i : S4x1x8192.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 8192 := (i 2).isLt
  have hlt : 64 * (i 0).val + 63 < cfg0.N := by rw [show cfg0.N = 256 from N_0]; omega
  refine ⟨⟨64 * (i 0).val + 63, hlt⟩, (flush0_3 _).mpr (by show (64 * (i 0).val + 63) % 64 = 63; omega), ?_⟩
  obtain ⟨-, -, -, e0, e1, e2⟩ := idx_out ⟨64 * (i 0).val + 63, hlt⟩
  rw [mem_blk3]
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 8192 ≤ (i 2).val ∧ (i 2).val < win0_3.index _ (2 : Fin 3) * 8192 + 8192; rw [e2]; omega

/-- The first result's array after the run. -/
theorem final2 (c : Dev nD) : (dats m 0 c).arrAt 2 cfg0.N = G2 m c :=
  (dats m 0 c).arrAt_eq_of_cover 2 (G2 m c) (fun t hf => flushed2_eq m c t hf) cover2

/-- The second result's array after the run. -/
theorem final3 (c : Dev nD) : (dats m 0 c).arrAt 3 cfg0.N = G3 m c :=
  (dats m 0 c).arrAt_eq_of_cover 3 (G3 m c) (fun t hf => flushed3_eq m c t hf) cover3

/-! ## The two reshapes after the region, and the run read as values -/

/-- The program's first result: the first array with its unit axis dropped. -/
theorem tail_v1 (c : Dev nD) :
    Pipeline.afterTail₀ cfgs (dats m) 0 (V0 m) [hostOps1] c main_v1
      = fun j : S4x8192.Idx => d1N (cloud1 m c) (cloud2 m c) (j 0).val (j 1).val := by
  unfold Pipeline.afterTail₀
  show StableHlo.after hostOps1 _ (Proc.devRef .tc main_v1) = _
  after_results
  funext j
  obtain ⟨b, r, rfl⟩ : ∃ (b : Fin 4) (r : Fin 8192), j = ix2 b r := ⟨j 0, j 1, eq_ix2 j⟩
  show shapeCast S4x8192 (Pipeline.withArrays spec0 c (V0 m c) (fun w => (dats m 0 c).arrAt w cfg0.N)
    (Proc.devRef .tc (Pipeline.arrRef spec0 2))) shapeCasts_S4x1x8192_S4x8192 (ix2 b r) = _
  rw [Pipeline.withArrays_arr spec0 launch0.win.arr_inj c _ _ 2, final2]
  refine (shapeCast_apply _ _ (ix2 b r) (ix3 b (0 : Fin 1) r) ?_).trans rfl
  rw [Shape.rowMajor_val_three, Shape.rowMajor_val_two]
  show (b.val * 1 + 0) * 8192 + r.val = b.val * 8192 + r.val
  omega

/-- The program's second result: the second array with its unit axis dropped. -/
theorem tail_v2 (c : Dev nD) :
    Pipeline.afterTail₀ cfgs (dats m) 0 (V0 m) [hostOps1] c main_v2
      = fun j : S4x8192.Idx => d2N (cloud1 m c) (cloud2 m c) (j 0).val (j 1).val := by
  unfold Pipeline.afterTail₀
  show StableHlo.after hostOps1 _ (Proc.devRef .tc main_v2) = _
  after_results
  funext j
  obtain ⟨b, l, rfl⟩ : ∃ (b : Fin 4) (l : Fin 8192), j = ix2 b l := ⟨j 0, j 1, eq_ix2 j⟩
  show shapeCast S4x8192 (Pipeline.withArrays spec0 c (V0 m c) (fun w => (dats m 0 c).arrAt w cfg0.N)
    (Proc.devRef .tc (Pipeline.arrRef spec0 3))) shapeCasts_S4x1x8192_S4x8192 (ix2 b l) = _
  rw [Pipeline.withArrays_arr spec0 launch0.win.arr_inj c _ _ 3, final3]
  refine (shapeCast_apply _ _ (ix2 b l) (ix3 b (0 : Fin 1) l) ?_).trans rfl
  rw [Shape.rowMajor_val_three, Shape.rowMajor_val_two]
  show (b.val * 1 + 0) * 8192 + l.val = b.val * 8192 + l.val
  omega

/-- The run, read as values: the two results are the nearest squared distances, and the two clouds are unchanged. -/
theorem run_value : θ_run defs (onTc (τ := τ) (main (F := Ideal))) ⟨m, fun _ => 0, ρ⟩ fun r => ∀ c : Dev nD,
      r.2.mem ((c.tc : Thread nD τ).loc main_v1) = (fun j : S4x8192.Idx => d1N (cloud1 m c) (cloud2 m c) (j 0).val (j 1).val)
      ∧ r.2.mem ((c.tc : Thread nD τ).loc main_v2) = (fun j : S4x8192.Idx => d2N (cloud1 m c) (cloud2 m c) (j 0).val (j 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (by decide))).trans (tail_v1 m c),
     ((h c).2 main_v2 (Pipeline.mem_restRefs_of main_v2 rfl (by decide))).trans (tail_v2 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Proof.KI

end
-- ==== Proof.RefValue.lean ====
/-
  The reference's two results at an entry: the jnp program forms the full [4, 8192, 8192] array of squared distances
  (‖x‖² and ‖y‖² broadcast along the other cloud's axis, minus twice the batched inner product) and reduces it by
  `min` from +∞ along the second cloud's axis (first result) and along the first cloud's axis (second result): entry
  (b, r) of the first is `Spec.d1 b r`, entry (b, l) of the second `Spec.d2 b l`.
-/
import proofs.«117525_j755914244601_2_alg».proof.Proof.Gen.ReferenceIdeal.Read
import proofs.«117525_j755914244601_2_alg».proof.Proof.Spec
import Idealize.ShloMosaic.PureOps.Reduce

noncomputable section

namespace Cert.Proof.RefValue

open Cert.ReferenceIdeal Cert.ReferenceIdeal.Gen Cert.ReferenceIdeal.Read
open Idealize.ShloMosaic Idealize.ShloMosaic.ValueIdx
open Cert.Proof

/-- The first cloud's norm is read, through the two broadcasts, at point (b, r, ·). -/
private theorem idx_norm1 (b : Fin 4) (r l : Fin 8192) (k : Fin 3) :
    idx_main_v1 (idx_main_v5 (idx_main_v7 (ix3 b r l))) k = ix3 b r k :=
  funext fun a => Fin.ext (by match a with | ⟨0, _⟩ => rfl | ⟨1, _⟩ => rfl | ⟨2, _⟩ => rfl)

/-- The second cloud's norm is read, through the two broadcasts, at point (b, l, ·). -/
private theorem idx_norm2 (b : Fin 4) (r l : Fin 8192) (k : Fin 3) :
    idx_main_v3 (idx_main_v6 (idx_main_v8 (ix3 b r l))) k = ix3 b l k :=
  funext fun a => Fin.ext (by match a with | ⟨0, _⟩ => rfl | ⟨1, _⟩ => rfl | ⟨2, _⟩ => rfl)

/-- The inner product's left operand is read at (b, r, ·). -/
private theorem idx_dotl (b : Fin 4) (r l : Fin 8192) (k : Fin 3) :
    lidx_main_v4 (ix3 b r l) k = ix3 b r k :=
  funext fun a => Fin.ext (by match a with | ⟨0, _⟩ => rfl | ⟨1, _⟩ => rfl | ⟨2, _⟩ => rfl)

/-- The inner product's right operand is read at (b, l, ·). -/
private theorem idx_dotr (b : Fin 4) (r l : Fin 8192) (k : Fin 3) :
    ridx_main_v4 (ix3 b r l) k = ix3 b l k :=
  funext fun a => Fin.ext (by match a with | ⟨0, _⟩ => rfl | ⟨1, _⟩ => rfl | ⟨2, _⟩ => rfl)

/-- Entry (b, r, l) of the reference's distance array. -/
theorem v12_apply (X1 X2 : (⟨S4x8192x3, .f32⟩ : BufTy).Contents (Elt Ideal)) (b : Fin 4) (r l : Fin 8192) :
    val_main_v12 (F := Ideal) X1 X2 (ix3 b r l) = Spec.dist X1 X2 b r l := by
  rw [val_main_v12_apply, val_main_v9_apply, val_main_v11_apply, val_main_v7_apply, val_main_v8_apply,
    val_main_v5_apply, val_main_v6_apply, val_main_v1_apply, val_main_v3_apply, val_main_v4_apply,
    val_main_v10_apply, val_main_cst_apply, val_main_cst_0_apply, val_main_cst_1_apply]
  simp only [idx_norm1, idx_norm2, idx_dotl, idx_dotr, val_main_v0_apply, val_main_v2_apply,
    Ideal.ofBits_def, Ideal.addf_def, Ideal.subf_def, Ideal.mulf_def, Ideal.ofBits_zero_f32, zero_add]
  rfl

/-- Over result index (b, r), the source index with coordinate l on the last axis is (b, r, l). -/
private theorem lift_last (h : S4x8192x8192.Reduces [2] S4x8192) (b : Fin 4) (r l : Fin 8192) :
    h.lift (ix2 b r) l = ix3 b r l :=
  funext fun a => Fin.ext (by match a with | ⟨0, _⟩ => rfl | ⟨1, _⟩ => rfl | ⟨2, _⟩ => rfl)

/-- Over result index (b, l), the source index with coordinate r on the middle axis is (b, r, l). -/
private theorem lift_mid (h : S4x8192x8192.Reduces [1] S4x8192) (b : Fin 4) (r l : Fin 8192) :
    h.lift (ix2 b l) r = ix3 b r l :=
  funext fun a => Fin.ext (by match a with | ⟨0, _⟩ => rfl | ⟨1, _⟩ => rfl | ⟨2, _⟩ => rfl)

/-- The reference's first result at (b, r): the nearest squared distance from point r of the first cloud. -/
theorem v13_apply (X1 X2 : (⟨S4x8192x3, .f32⟩ : BufTy).Contents (Elt Ideal)) (b : Fin 4) (r : Fin 8192) :
    val_main_v13 (F := Ideal) X1 X2 (ix2 b r) = Spec.d1 X1 X2 b r := by
  have h : S4x8192x8192.Reduces [2] S4x8192 := by decide
  unfold val_main_v13
  rw [Host.reduce_eq_fold_single _ _ _ reducesTo_S4x8192x8192_S4x8192_d2 h h_S_ (ix2 b r), val_main_cst_2_apply]
  refine (Spec.fold_min_eq_iInf (n := 8192)
    (fun k => val_main_v12 (F := Ideal) X1 X2 (h.lift (ix2 b r) k))).trans ?_
  exact iInf_congr fun k => (congrArg _ (lift_last h b r k)).trans (v12_apply X1 X2 b r k)

/-- The reference's second result at (b, l): the nearest squared distance from point l of the second cloud. -/
theorem v14_apply (X1 X2 : (⟨S4x8192x3, .f32⟩ : BufTy).Contents (Elt Ideal)) (b : Fin 4) (l : Fin 8192) :
    val_main_v14 (F := Ideal) X1 X2 (ix2 b l) = Spec.d2 X1 X2 b l := by
  have h : S4x8192x8192.Reduces [1] S4x8192 := by decide
  unfold val_main_v14
  rw [Host.reduce_eq_fold_single _ _ _ reducesTo_S4x8192x8192_S4x8192_d1 h h_S_ (ix2 b l), val_main_cst_3_apply]
  refine (Spec.fold_min_eq_iInf (n := 8192)
    (fun k => val_main_v12 (F := Ideal) X1 X2 (h.lift (ix2 b l) k))).trans ?_
  exact iInf_congr fun k => (congrArg _ (lift_mid h b k l)).trans (v12_apply X1 X2 b k l)

end Cert.Proof.RefValue

end
-- ==== Proof.lean ====
/-
  The chamfer-distance kernel against its jnp reference, over the extended reals.

  Both programs compute, for two clouds of 8192 points in each of 4 batches, the squared distance of every pair as
  ‖x‖² + ‖y‖² − 2 x·y and then, for each point of either cloud, the minimum over the other cloud. The reference forms
  the whole [4, 8192, 8192] array and reduces it twice. The kernel walks a (4, 8, 8) grid of 1024 × 1024 tiles of it,
  keeping a running row minimum for the current row tile (restarted from +∞ at each sweep over the second cloud) and a
  running column minimum for the whole batch (restarted from +∞ at each batch), and writes each back when its sweep
  ends. A minimum taken tile by tile is the minimum over the whole axis, and a fold of `min` from +∞ is an infimum, so
  the two agree entry by entry; only commutativity, associativity and idempotence of `min` are used, never finiteness
  of the inputs.

  The three frames: the two kernel programs (the same text at the word level and at the extended reals) by the
  body's triple in each of its three control cases and the pipeline's frame run; the reference by its run.
  `preserves` has no conjunct: the idealization rewrote nothing.
-/
import proofs.«117525_j755914244601_2_alg».proof.Defs
import proofs.«117525_j755914244601_2_alg».proof.Proof.Gen.Kernel
import proofs.«117525_j755914244601_2_alg».proof.Proof.Gen.KernelIdeal
import proofs.«117525_j755914244601_2_alg».proof.Proof.Gen.ReferenceIdeal
import proofs.«117525_j755914244601_2_alg».proof.Proof.Gen.ReferenceIdeal.Run
import proofs.«117525_j755914244601_2_alg».proof.Proof.Gen.ReferenceIdeal.Read
import proofs.«117525_j755914244601_2_alg».proof.Proof.Gen.Pre_finite_inputs
import proofs.«117525_j755914244601_2_alg».proof.Proof.K.Data
import proofs.«117525_j755914244601_2_alg».proof.Proof.KI.Final
import proofs.«117525_j755914244601_2_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Proof.K.frame (F := Bits) m ρ

theorem frame_ki : Cert.frame_KernelIdeal (hKernelIdeal := Cert.KernelIdeal.Gen.facts) (hPre_finite_inputs := Cert.Pre_finite_inputs.Gen.facts) :=
  fun m ρ _ => Cert.Proof.KI.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The kernel's two results are `d1` and `d2` of its argument clouds (the tile-by-tile minima assembled), and so are the
    reference's (its two reductions read as infima), of clouds that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun j : Cert.KernelIdeal.S4x8192.Idx => KI.d1N (KI.cloud1 m c) (KI.cloud2 m c) (j 0).val (j 1).val,
    fun c => fun j : Cert.KernelIdeal.S4x8192.Idx => KI.d2N (KI.cloud1 m c) (KI.cloud2 m c) (j 0).val (j 1).val,
    KI.run_value m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v13_eq, (hagree c).1, (hagree c).2]
    funext j
    obtain ⟨b, r, rfl⟩ : ∃ (b : Fin 4) (r : Fin 8192), j = ix2 b r := ⟨j 0, j 1, eq_ix2 j⟩
    rw [RefValue.v13_apply]
    exact (KI.d1N_eq _ _ b r).symm
  · rw [Cert.ReferenceIdeal.Read.val_main_v14_eq, (hagree c).1, (hagree c).2]
    funext j
    obtain ⟨b, l, rfl⟩ : ∃ (b : Fin 4) (l : Fin 8192), j = ix2 b l := ⟨j 0, j 1, eq_ix2 j⟩
    rw [RefValue.v14_apply]
    exact (KI.d2N_eq _ _ b l).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
